-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10 : Shape := ⟨1, ![10]⟩
abbrev S10x6 : Shape := ⟨2, ![10, 6]⟩
abbrev S10077696x6 : Shape := ⟨2, ![10077696, 6]⟩
abbrev S_ : Shape := ⟨0, ![]⟩

class Facts : Prop where
  bcast_S_S10 : S_.BroadcastsInDim S10 (![] : Fin 0 → Fin S10.rank)
  reducesTo_S10_S_d0 : S10.ReducesTo [0] S_
  h_S_ : 0 < S_.numel
  bcast_S_S10x6 : S_.BroadcastsInDim S10x6 (![] : Fin 0 → Fin S10x6.rank)
  reducesTo_S10x6_S_d0_1 : S10x6.ReducesTo [0, 1] S_
  bcast_S_S10077696x6 : S_.BroadcastsInDim S10077696x6 (![] : Fin 0 → Fin S10077696x6.rank)
  reducesTo_S10077696x6_S_d0_1 : S10077696x6.ReducesTo [0, 1] S_

variable [Facts]

def fn_part1 {F : FTy → Type} [FloatOps F] (main_v13 : IVec S_ 1) (main_v16 : IVec S10077696x6 1) : IVec S_ 1 :=
  let main_c_5 : IVec S_ 1 := constantI S_ 1 1#1
  let main_v17 : IVec S_ 1 := (fun x v => Host.reduce IntOp.andi x v reducesTo_S10077696x6_S_d0_1 h_S_) main_v16 main_c_5
  let main_v18 : IVec S_ 1 := andi main_v13 main_v17
  main_v18

def fn {F : FTy → Type} [FloatOps F] (main_arg0 : FVec F S10 .f32) (main_arg1 : FVec F S10x6 .f32) (main_arg2 : FVec F S10x6 .f32) (main_arg3 : FVec F S10077696x6 .f32) : IVec S_ 1 :=
  let main_v0 : FVec F S10 .f32 := Host.absf main_arg0
  let main_cst : FVec F S_ .f32 := constant S_ .f32 0x7F800000#32
  let main_v1 : FVec F S10 .f32 := broadcastInDim S10 ![] bcast_S_S10 main_cst
  let main_v2 : IVec S10 1 := cmpf .olt main_v0 main_v1
  let main_c : IVec S_ 1 := constantI S_ 1 1#1
  let main_v3 : IVec S_ 1 := (fun x v => Host.reduce IntOp.andi x v reducesTo_S10_S_d0 h_S_) main_v2 main_c
  let main_v4 : FVec F S10x6 .f32 := Host.absf main_arg1
  let main_cst_0 : FVec F S_ .f32 := constant S_ .f32 0x7F800000#32
  let main_v5 : FVec F S10x6 .f32 := broadcastInDim S10x6 ![] bcast_S_S10x6 main_cst_0
  let main_v6 : IVec S10x6 1 := cmpf .olt main_v4 main_v5
  let main_c_1 : IVec S_ 1 := constantI S_ 1 1#1
  let main_v7 : IVec S_ 1 := (fun x v => Host.reduce IntOp.andi x v reducesTo_S10x6_S_d0_1 h_S_) main_v6 main_c_1
  let main_v8 : IVec S_ 1 := andi main_v3 main_v7
  let main_v9 : FVec F S10x6 .f32 := Host.absf main_arg2
  let main_cst_2 : FVec F S_ .f32 := constant S_ .f32 0x7F800000#32
  let main_v10 : FVec F S10x6 .f32 := broadcastInDim S10x6 ![] bcast_S_S10x6 main_cst_2
  let main_v11 : IVec S10x6 1 := cmpf .olt main_v9 main_v10
  let main_c_3 : IVec S_ 1 := constantI S_ 1 1#1
  let main_v12 : IVec S_ 1 := (fun x v => Host.reduce IntOp.andi x v reducesTo_S10x6_S_d0_1 h_S_) main_v11 main_c_3
  let main_v13 : IVec S_ 1 := andi main_v8 main_v12
  let main_v14 : FVec F S10077696x6 .f32 := Host.absf main_arg3
  let main_cst_4 : FVec F S_ .f32 := constant S_ .f32 0x7F800000#32
  let main_v15 : FVec F S10077696x6 .f32 := broadcastInDim S10077696x6 ![] bcast_S_S10077696x6 main_cst_4
  let main_v16 : IVec S10077696x6 1 := cmpf .olt main_v14 main_v15
  fn_part1 (F := F) main_v13 main_v16
-- ==== Kernel.lean ====
abbrev S10 : Shape := ⟨1, ![10]⟩
abbrev S10x6 : Shape := ⟨2, ![10, 6]⟩
abbrev S10077696x6 : Shape := ⟨2, ![10077696, 6]⟩
abbrev S10x1 : Shape := ⟨2, ![10, 1]⟩
abbrev S_ : Shape := ⟨0, ![]⟩
abbrev S1x6 : Shape := ⟨2, ![1, 6]⟩
abbrev S6 : Shape := ⟨1, ![6]⟩
abbrev S6x1 : Shape := ⟨2, ![6, 1]⟩
abbrev S6x6 : Shape := ⟨2, ![6, 6]⟩
abbrev S36 : Shape := ⟨1, ![36]⟩
abbrev S36x1 : Shape := ⟨2, ![36, 1]⟩
abbrev S36x6 : Shape := ⟨2, ![36, 6]⟩
abbrev S216 : Shape := ⟨1, ![216]⟩
abbrev S216x1 : Shape := ⟨2, ![216, 1]⟩
abbrev S216x6 : Shape := ⟨2, ![216, 6]⟩
abbrev S1296 : Shape := ⟨1, ![1296]⟩
abbrev S1296x1 : Shape := ⟨2, ![1296, 1]⟩
abbrev S1296x6 : Shape := ⟨2, ![1296, 6]⟩
abbrev S7776 : Shape := ⟨1, ![7776]⟩
abbrev S7776x1 : Shape := ⟨2, ![7776, 1]⟩
abbrev S7776x6 : Shape := ⟨2, ![7776, 6]⟩
abbrev S46656 : Shape := ⟨1, ![46656]⟩
abbrev S46656x1 : Shape := ⟨2, ![46656, 1]⟩
abbrev S46656x6 : Shape := ⟨2, ![46656, 6]⟩
abbrev S279936 : Shape := ⟨1, ![279936]⟩
abbrev S216x279936 : Shape := ⟨2, ![216, 279936]⟩
abbrev S1x279936 : Shape := ⟨2, ![1, 279936]⟩
abbrev S216x10368 : Shape := ⟨2, ![216, 10368]⟩
abbrev S1x10368 : Shape := ⟨2, ![1, 10368]⟩

abbrev nBuf : Space → Nat
  | .hbm => 96
  | .vmem => 6
  | .smem => 0
  | _ => 0

abbrev bufTy : (tb : Table) → Fin (tcTables nBuf tb) → BufTy
  | .hbm, ⟨0, _⟩ => ⟨S10, .f32⟩
  | .hbm, ⟨1, _⟩ => ⟨S10x6, .f32⟩
  | .hbm, ⟨2, _⟩ => ⟨S10x6, .f32⟩
  | .hbm, ⟨3, _⟩ => ⟨S10077696x6, .f32⟩
  | .hbm, ⟨4, _⟩ => ⟨S10x1, .f32⟩
  | .hbm, ⟨5, _⟩ => ⟨S10x6, .f32⟩
  | .hbm, ⟨6, _⟩ => ⟨S10x6, .f32⟩
  | .hbm, ⟨7, _⟩ => ⟨S10x6, .f32⟩
  | .hbm, ⟨8, _⟩ => ⟨S10x6, .f32⟩
  | .hbm, ⟨9, _⟩ => ⟨S10x6, .f32⟩
  | .hbm, ⟨10, _⟩ => ⟨S_, .f32⟩
  | .hbm, ⟨11, _⟩ => ⟨S10x6, .f32⟩
  | .hbm, ⟨12, _⟩ => ⟨S10x6, .f32⟩
  | .hbm, ⟨13, _⟩ => ⟨S10x6, .f32⟩
  | .hbm, ⟨14, _⟩ => ⟨S10x6, .f32⟩
  | .hbm, ⟨15, _⟩ => ⟨S1x6, .f32⟩
  | .hbm, ⟨16, _⟩ => ⟨S6, .f32⟩
  | .hbm, ⟨17, _⟩ => ⟨S6x1, .f32⟩
  | .hbm, ⟨18, _⟩ => ⟨S1x6, .f32⟩
  | .hbm, ⟨19, _⟩ => ⟨S6, .f32⟩
  | .hbm, ⟨20, _⟩ => ⟨S1x6, .f32⟩
  | .hbm, ⟨21, _⟩ => ⟨S6x6, .f32⟩
  | .hbm, ⟨22, _⟩ => ⟨S6x6, .f32⟩
  | .hbm, ⟨23, _⟩ => ⟨S6x6, .f32⟩
  | .hbm, ⟨24, _⟩ => ⟨S36, .f32⟩
  | .hbm, ⟨25, _⟩ => ⟨S36x1, .f32⟩
  | .hbm, ⟨26, _⟩ => ⟨S1x6, .f32⟩
  | .hbm, ⟨27, _⟩ => ⟨S6, .f32⟩
  | .hbm, ⟨28, _⟩ => ⟨S1x6, .f32⟩
  | .hbm, ⟨29, _⟩ => ⟨S36x6, .f32⟩
  | .hbm, ⟨30, _⟩ => ⟨S36x6, .f32⟩
  | .hbm, ⟨31, _⟩ => ⟨S36x6, .f32⟩
  | .hbm, ⟨32, _⟩ => ⟨S216, .f32⟩
  | .hbm, ⟨33, _⟩ => ⟨S1x6, .f32⟩
  | .hbm, ⟨34, _⟩ => ⟨S6, .f32⟩
  | .hbm, ⟨35, _⟩ => ⟨S6x1, .f32⟩
  | .hbm, ⟨36, _⟩ => ⟨S1x6, .f32⟩
  | .hbm, ⟨37, _⟩ => ⟨S6, .f32⟩
  | .hbm, ⟨38, _⟩ => ⟨S1x6, .f32⟩
  | .hbm, ⟨39, _⟩ => ⟨S6x6, .f32⟩
  | .hbm, ⟨40, _⟩ => ⟨S6x6, .f32⟩
  | .hbm, ⟨41, _⟩ => ⟨S6x6, .f32⟩
  | .hbm, ⟨42, _⟩ => ⟨S36, .f32⟩
  | .hbm, ⟨43, _⟩ => ⟨S36x1, .f32⟩
  | .hbm, ⟨44, _⟩ => ⟨S1x6, .f32⟩
  | .hbm, ⟨45, _⟩ => ⟨S6, .f32⟩
  | .hbm, ⟨46, _⟩ => ⟨S1x6, .f32⟩
  | .hbm, ⟨47, _⟩ => ⟨S36x6, .f32⟩
  | .hbm, ⟨48, _⟩ => ⟨S36x6, .f32⟩
  | .hbm, ⟨49, _⟩ => ⟨S36x6, .f32⟩
  | .hbm, ⟨50, _⟩ => ⟨S216, .f32⟩
  | .hbm, ⟨51, _⟩ => ⟨S216x1, .f32⟩
  | .hbm, ⟨52, _⟩ => ⟨S1x6, .f32⟩
  | .hbm, ⟨53, _⟩ => ⟨S6, .f32⟩
  | .hbm, ⟨54, _⟩ => ⟨S1x6, .f32⟩
  | .hbm, ⟨55, _⟩ => ⟨S216x6, .f32⟩
  | .hbm, ⟨56, _⟩ => ⟨S216x6, .f32⟩
  | .hbm, ⟨57, _⟩ => ⟨S216x6, .f32⟩
  | .hbm, ⟨58, _⟩ => ⟨S1296, .f32⟩
  | .hbm, ⟨59, _⟩ => ⟨S1296x1, .f32⟩
  | .hbm, ⟨60, _⟩ => ⟨S1x6, .f32⟩
  | .hbm, ⟨61, _⟩ => ⟨S6, .f32⟩
  | .hbm, ⟨62, _⟩ => ⟨S1x6, .f32⟩
  | .hbm, ⟨63, _⟩ => ⟨S1296x6, .f32⟩
  | .hbm, ⟨64, _⟩ => ⟨S1296x6, .f32⟩
  | .hbm, ⟨65, _⟩ => ⟨S1296x6, .f32⟩
  | .hbm, ⟨66, _⟩ => ⟨S7776, .f32⟩
  | .hbm, ⟨67, _⟩ => ⟨S7776x1, .f32⟩
  | .hbm, ⟨68, _⟩ => ⟨S1x6, .f32⟩
  | .hbm, ⟨69, _⟩ => ⟨S6, .f32⟩
  | .hbm, ⟨70, _⟩ => ⟨S1x6, .f32⟩
  | .hbm, ⟨71, _⟩ => ⟨S7776x6, .f32⟩
  | .hbm, ⟨72, _⟩ => ⟨S7776x6, .f32⟩
  | .hbm, ⟨73, _⟩ => ⟨S7776x6, .f32⟩
  | .hbm, ⟨74, _⟩ => ⟨S46656, .f32⟩
  | .hbm, ⟨75, _⟩ => ⟨S46656x1, .f32⟩
  | .hbm, ⟨76, _⟩ => ⟨S1x6, .f32⟩
  | .hbm, ⟨77, _⟩ => ⟨S6, .f32⟩
  | .hbm, ⟨78, _⟩ => ⟨S1x6, .f32⟩
  | .hbm, ⟨79, _⟩ => ⟨S46656x6, .f32⟩
  | .hbm, ⟨80, _⟩ => ⟨S46656x6, .f32⟩
  | .hbm, ⟨81, _⟩ => ⟨S46656x6, .f32⟩
  | .hbm, ⟨82, _⟩ => ⟨S279936, .f32⟩
  | .hbm, ⟨83, _⟩ => ⟨S216x279936, .f32⟩
  | .hbm, ⟨84, _⟩ => ⟨S1x279936, .f32⟩
  | .hbm, ⟨85, _⟩ => ⟨S216x1, .f32⟩
  | .hbm, ⟨86, _⟩ => ⟨S216, .f32⟩
  | .hbm, ⟨87, _⟩ => ⟨S216, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .local _ .vmem, ⟨0, _⟩ => ⟨S216x10368, .f32⟩
  | .local _ .vmem, ⟨1, _⟩ => ⟨S216x10368, .f32⟩
  | .local _ .vmem, ⟨2, _⟩ => ⟨S1x10368, .f32⟩
  | .local _ .vmem, ⟨3, _⟩ => ⟨S1x10368, .f32⟩
  | .local _ .vmem, ⟨4, _⟩ => ⟨S216x1, .f32⟩
  | .local _ .vmem, ⟨5, _⟩ => ⟨S216x1, .f32⟩
  | _, _ => ⟨S10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_cst_0 : Ref sig .tc := ⟨.hbm, 88, rfl⟩
abbrev main_v83 : Ref sig .tc := ⟨.hbm, 89, rfl⟩
abbrev main_cst_1 : Ref sig .tc := ⟨.hbm, 90, rfl⟩
abbrev main_v84 : Ref sig .tc := ⟨.hbm, 91, rfl⟩
abbrev main_cst_2 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![27], ![false]⟩

def k0_cond2 (i : grid0.Coords) : BitVec 1 :=
  let arg0 : BitVec 32 := BitVec.ofNat 32 (i 0).val
  let c26_i32 : BitVec 32 := 26#32
  let v16 : BitVec 1 := Scalar.cmpi .eq arg0 c26_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S216x10368 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10368 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S216x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S10_S10x1_0 : S10.BroadcastsInDim S10x1 (![0] : Fin 1 → Fin S10x1.rank)
  bcast_S10x1_S10x6_0_1 : S10x1.BroadcastsInDim S10x6 (![0, 1] : Fin 2 → Fin S10x6.rank)
  bcast_S_S10x6 : S_.BroadcastsInDim S10x6 (![] : Fin 0 → Fin S10x6.rank)
  slices_S10x6_S1x6_0_0 : S10x6.Slices ![0, 0] S1x6
  shapeCasts_S1x6_S6 : S1x6.ShapeCasts S6
  bcast_S6_S6x1_0 : S6.BroadcastsInDim S6x1 (![0] : Fin 1 → Fin S6x1.rank)
  slices_S10x6_S1x6_1_0 : S10x6.Slices ![1, 0] S1x6
  bcast_S6_S1x6_1 : S6.BroadcastsInDim S1x6 (![1] : Fin 1 → Fin S1x6.rank)
  bcast_S6x1_S6x6_0_1 : S6x1.BroadcastsInDim S6x6 (![0, 1] : Fin 2 → Fin S6x6.rank)
  bcast_S1x6_S6x6_0_1 : S1x6.BroadcastsInDim S6x6 (![0, 1] : Fin 2 → Fin S6x6.rank)
  shapeCasts_S6x6_S36 : S6x6.ShapeCasts S36
  bcast_S36_S36x1_0 : S36.BroadcastsInDim S36x1 (![0] : Fin 1 → Fin S36x1.rank)
  slices_S10x6_S1x6_2_0 : S10x6.Slices ![2, 0] S1x6
  bcast_S36x1_S36x6_0_1 : S36x1.BroadcastsInDim S36x6 (![0, 1] : Fin 2 → Fin S36x6.rank)
  bcast_S1x6_S36x6_0_1 : S1x6.BroadcastsInDim S36x6 (![0, 1] : Fin 2 → Fin S36x6.rank)
  shapeCasts_S36x6_S216 : S36x6.ShapeCasts S216
  slices_S10x6_S1x6_3_0 : S10x6.Slices ![3, 0] S1x6
  slices_S10x6_S1x6_4_0 : S10x6.Slices ![4, 0] S1x6
  slices_S10x6_S1x6_5_0 : S10x6.Slices ![5, 0] S1x6
  bcast_S216_S216x1_0 : S216.BroadcastsInDim S216x1 (![0] : Fin 1 → Fin S216x1.rank)
  slices_S10x6_S1x6_6_0 : S10x6.Slices ![6, 0] S1x6
  bcast_S216x1_S216x6_0_1 : S216x1.BroadcastsInDim S216x6 (![0, 1] : Fin 2 → Fin S216x6.rank)
  bcast_S1x6_S216x6_0_1 : S1x6.BroadcastsInDim S216x6 (![0, 1] : Fin 2 → Fin S216x6.rank)
  shapeCasts_S216x6_S1296 : S216x6.ShapeCasts S1296
  bcast_S1296_S1296x1_0 : S1296.BroadcastsInDim S1296x1 (![0] : Fin 1 → Fin S1296x1.rank)
  slices_S10x6_S1x6_7_0 : S10x6.Slices ![7, 0] S1x6
  bcast_S1296x1_S1296x6_0_1 : S1296x1.BroadcastsInDim S1296x6 (![0, 1] : Fin 2 → Fin S1296x6.rank)
  bcast_S1x6_S1296x6_0_1 : S1x6.BroadcastsInDim S1296x6 (![0, 1] : Fin 2 → Fin S1296x6.rank)
  shapeCasts_S1296x6_S7776 : S1296x6.ShapeCasts S7776
  bcast_S7776_S7776x1_0 : S7776.BroadcastsInDim S7776x1 (![0] : Fin 1 → Fin S7776x1.rank)
  slices_S10x6_S1x6_8_0 : S10x6.Slices ![8, 0] S1x6
  bcast_S7776x1_S7776x6_0_1 : S7776x1.BroadcastsInDim S7776x6 (![0, 1] : Fin 2 → Fin S7776x6.rank)
  bcast_S1x6_S7776x6_0_1 : S1x6.BroadcastsInDim S7776x6 (![0, 1] : Fin 2 → Fin S7776x6.rank)
  shapeCasts_S7776x6_S46656 : S7776x6.ShapeCasts S46656
  bcast_S46656_S46656x1_0 : S46656.BroadcastsInDim S46656x1 (![0] : Fin 1 → Fin S46656x1.rank)
  slices_S10x6_S1x6_9_0 : S10x6.Slices ![9, 0] S1x6
  bcast_S46656x1_S46656x6_0_1 : S46656x1.BroadcastsInDim S46656x6 (![0, 1] : Fin 2 → Fin S46656x6.rank)
  bcast_S1x6_S46656x6_0_1 : S1x6.BroadcastsInDim S46656x6 (![0, 1] : Fin 2 → Fin S46656x6.rank)
  shapeCasts_S46656x6_S279936 : S46656x6.ShapeCasts S279936
  shapeCasts_S10077696x6_S216x279936 : S10077696x6.ShapeCasts S216x279936
  shapeCasts_S279936_S1x279936 : S279936.ShapeCasts S1x279936
  inb_S216x1_S216x1_0_0 : ∀ a, (![0, 0] : Fin 2 → Nat) a + S216x1.size a ≤ S216x1.size a
  h_S216x1 : 0 < S216x1.numel
  shapeCasts_S216x1_S216x1 : S216x1.ShapeCasts S216x1
  inb_S216x10368_S216x10368_0_0 : ∀ a, (![0, 0] : Fin 2 → Nat) a + S216x10368.size a ≤ S216x10368.size a
  h_S216x10368 : 0 < S216x10368.numel
  shapeCasts_S216x10368_S216x10368 : S216x10368.ShapeCasts S216x10368
  inb_S1x10368_S1x10368_0_0 : ∀ a, (![0, 0] : Fin 2 → Nat) a + S1x10368.size a ≤ S1x10368.size a
  h_S1x10368 : 0 < S1x10368.numel
  shapeCasts_S1x10368_S1x10368 : S1x10368.ShapeCasts S1x10368
  broadcasts_S1x10368_S216x10368 : S1x10368.Broadcasts S216x10368
  reduces_S216x10368_S216 : S216x10368.Reduces [1] S216
  shapeCasts_S216_S216x1 : S216.ShapeCasts S216x1
  shapeCasts_S216x1_S216 : S216x1.ShapeCasts S216
  reducesTo_S216_S_d0 : S216.ReducesTo [0] S_
  h_S_ : 0 < S_.numel
  reducesTo_S279936_S_d0 : S279936.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S216x10368.size a ≤ S216x279936.size a
  hwx0_0 : ∀ i : grid0.Coords, EltTy.bits .f32 = 32 ∨ (Rect.block (s := S216x279936) S216x10368.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10368.size a ≤ S1x279936.size a
  hwx0_1 : ∀ i : grid0.Coords, EltTy.bits .f32 = 32 ∨ (Rect.block (s := S1x279936) S1x10368.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S216x1.size a ≤ S216x1.size a
  hwx0_2 : ∀ i : grid0.Coords, EltTy.bits .f32 = 32 ∨ (Rect.block (s := S216x1) S216x1.size (cc0_transform_2 i) (hinb0_2 i)).WholeWords (EltTy.packing .f32)

variable [Facts₀]

abbrev win0_0 : Pipeline.Window sig grid0 :=
  Pipeline.Window.ofSpec (Memref.whole main_v78) S216x10368.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v79) S1x10368.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v80) S216x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S10 : Shape := ⟨1, ![10]⟩
abbrev S10x6 : Shape := ⟨2, ![10, 6]⟩
abbrev S10077696x6 : Shape := ⟨2, ![10077696, 6]⟩
abbrev S10x1 : Shape := ⟨2, ![10, 1]⟩
abbrev S_ : Shape := ⟨0, ![]⟩
abbrev S1x6 : Shape := ⟨2, ![1, 6]⟩
abbrev S6 : Shape := ⟨1, ![6]⟩
abbrev S6x1 : Shape := ⟨2, ![6, 1]⟩
abbrev S6x6 : Shape := ⟨2, ![6, 6]⟩
abbrev S36 : Shape := ⟨1, ![36]⟩
abbrev S36x1 : Shape := ⟨2, ![36, 1]⟩
abbrev S36x6 : Shape := ⟨2, ![36, 6]⟩
abbrev S216 : Shape := ⟨1, ![216]⟩
abbrev S216x1 : Shape := ⟨2, ![216, 1]⟩
abbrev S216x6 : Shape := ⟨2, ![216, 6]⟩
abbrev S1296 : Shape := ⟨1, ![1296]⟩
abbrev S1296x1 : Shape := ⟨2, ![1296, 1]⟩
abbrev S1296x6 : Shape := ⟨2, ![1296, 6]⟩
abbrev S7776 : Shape := ⟨1, ![7776]⟩
abbrev S7776x1 : Shape := ⟨2, ![7776, 1]⟩
abbrev S7776x6 : Shape := ⟨2, ![7776, 6]⟩
abbrev S46656 : Shape := ⟨1, ![46656]⟩
abbrev S46656x1 : Shape := ⟨2, ![46656, 1]⟩
abbrev S46656x6 : Shape := ⟨2, ![46656, 6]⟩
abbrev S279936 : Shape := ⟨1, ![279936]⟩
abbrev S279936x1 : Shape := ⟨2, ![279936, 1]⟩
abbrev S279936x6 : Shape := ⟨2, ![279936, 6]⟩
abbrev S1679616 : Shape := ⟨1, ![1679616]⟩
abbrev S1679616x1 : Shape := ⟨2, ![1679616, 1]⟩
abbrev S1679616x6 : Shape := ⟨2, ![1679616, 6]⟩
abbrev S10077696 : Shape := ⟨1, ![10077696]⟩
abbrev S10077696x1 : Shape := ⟨2, ![10077696, 1]⟩
abbrev S60466176 : Shape := ⟨1, ![60466176]⟩

abbrev nBuf : Space → Nat
  | .hbm => 96
  | .vmem => 0
  | .smem => 0
  | _ => 0

abbrev bufTy : (tb : Table) → Fin (tcTables nBuf tb) → BufTy
  | .hbm, ⟨0, _⟩ => ⟨S10, .f32⟩
  | .hbm, ⟨1, _⟩ => ⟨S10x6, .f32⟩
  | .hbm, ⟨2, _⟩ => ⟨S10x6, .f32⟩
  | .hbm, ⟨3, _⟩ => ⟨S10077696x6, .f32⟩
  | .hbm, ⟨4, _⟩ => ⟨S10x1, .f32⟩
  | .hbm, ⟨5, _⟩ => ⟨S10x6, .f32⟩
  | .hbm, ⟨6, _⟩ => ⟨S10x6, .f32⟩
  | .hbm, ⟨7, _⟩ => ⟨S10x6, .f32⟩
  | .hbm, ⟨8, _⟩ => ⟨S10x6, .f32⟩
  | .hbm, ⟨9, _⟩ => ⟨S10x6, .f32⟩
  | .hbm, ⟨10, _⟩ => ⟨S_, .f32⟩
  | .hbm, ⟨11, _⟩ => ⟨S10x6, .f32⟩
  | .hbm, ⟨12, _⟩ => ⟨S10x6, .f32⟩
  | .hbm, ⟨13, _⟩ => ⟨S10x6, .f32⟩
  | .hbm, ⟨14, _⟩ => ⟨S10x6, .f32⟩
  | .hbm, ⟨15, _⟩ => ⟨S1x6, .f32⟩
  | .hbm, ⟨16, _⟩ => ⟨S6, .f32⟩
  | .hbm, ⟨17, _⟩ => ⟨S6x1, .f32⟩
  | .hbm, ⟨18, _⟩ => ⟨S1x6, .f32⟩
  | .hbm, ⟨19, _⟩ => ⟨S6, .f32⟩
  | .hbm, ⟨20, _⟩ => ⟨S1x6, .f32⟩
  | .hbm, ⟨21, _⟩ => ⟨S6x6, .f32⟩
  | .hbm, ⟨22, _⟩ => ⟨S6x6, .f32⟩
  | .hbm, ⟨23, _⟩ => ⟨S6x6, .f32⟩
  | .hbm, ⟨24, _⟩ => ⟨S36, .f32⟩
  | .hbm, ⟨25, _⟩ => ⟨S36x1, .f32⟩
  | .hbm, ⟨26, _⟩ => ⟨S1x6, .f32⟩
  | .hbm, ⟨27, _⟩ => ⟨S6, .f32⟩
  | .hbm, ⟨28, _⟩ => ⟨S1x6, .f32⟩
  | .hbm, ⟨29, _⟩ => ⟨S36x6, .f32⟩
  | .hbm, ⟨30, _⟩ => ⟨S36x6, .f32⟩
  | .hbm, ⟨31, _⟩ => ⟨S36x6, .f32⟩
  | .hbm, ⟨32, _⟩ => ⟨S216, .f32⟩
  | .hbm, ⟨33, _⟩ => ⟨S216x1, .f32⟩
  | .hbm, ⟨34, _⟩ => ⟨S1x6, .f32⟩
  | .hbm, ⟨35, _⟩ => ⟨S6, .f32⟩
  | .hbm, ⟨36, _⟩ => ⟨S1x6, .f32⟩
  | .hbm, ⟨37, _⟩ => ⟨S216x6, .f32⟩
  | .hbm, ⟨38, _⟩ => ⟨S216x6, .f32⟩
  | .hbm, ⟨39, _⟩ => ⟨S216x6, .f32⟩
  | .hbm, ⟨40, _⟩ => ⟨S1296, .f32⟩
  | .hbm, ⟨41, _⟩ => ⟨S1296x1, .f32⟩
  | .hbm, ⟨42, _⟩ => ⟨S1x6, .f32⟩
  | .hbm, ⟨43, _⟩ => ⟨S6, .f32⟩
  | .hbm, ⟨44, _⟩ => ⟨S1x6, .f32⟩
  | .hbm, ⟨45, _⟩ => ⟨S1296x6, .f32⟩
  | .hbm, ⟨46, _⟩ => ⟨S1296x6, .f32⟩
  | .hbm, ⟨47, _⟩ => ⟨S1296x6, .f32⟩
  | .hbm, ⟨48, _⟩ => ⟨S7776, .f32⟩
  | .hbm, ⟨49, _⟩ => ⟨S7776x1, .f32⟩
  | .hbm, ⟨50, _⟩ => ⟨S1x6, .f32⟩
  | .hbm, ⟨51, _⟩ => ⟨S6, .f32⟩
  | .hbm, ⟨52, _⟩ => ⟨S1x6, .f32⟩
  | .hbm, ⟨53, _⟩ => ⟨S7776x6, .f32⟩
  | .hbm, ⟨54, _⟩ => ⟨S7776x6, .f32⟩
  | .hbm, ⟨55, _⟩ => ⟨S7776x6, .f32⟩
  | .hbm, ⟨56, _⟩ => ⟨S46656, .f32⟩
  | .hbm, ⟨57, _⟩ => ⟨S46656x1, .f32⟩
  | .hbm, ⟨58, _⟩ => ⟨S1x6, .f32⟩
  | .hbm, ⟨59, _⟩ => ⟨S6, .f32⟩
  | .hbm, ⟨60, _⟩ => ⟨S1x6, .f32⟩
  | .hbm, ⟨61, _⟩ => ⟨S46656x6, .f32⟩
  | .hbm, ⟨62, _⟩ => ⟨S46656x6, .f32⟩
  | .hbm, ⟨63, _⟩ => ⟨S46656x6, .f32⟩
  | .hbm, ⟨64, _⟩ => ⟨S279936, .f32⟩
  | .hbm, ⟨65, _⟩ => ⟨S279936x1, .f32⟩
  | .hbm, ⟨66, _⟩ => ⟨S1x6, .f32⟩
  | .hbm, ⟨67, _⟩ => ⟨S6, .f32⟩
  | .hbm, ⟨68, _⟩ => ⟨S1x6, .f32⟩
  | .hbm, ⟨69, _⟩ => ⟨S279936x6, .f32⟩
  | .hbm, ⟨70, _⟩ => ⟨S279936x6, .f32⟩
  | .hbm, ⟨71, _⟩ => ⟨S279936x6, .f32⟩
  | .hbm, ⟨72, _⟩ => ⟨S1679616, .f32⟩
  | .hbm, ⟨73, _⟩ => ⟨S1679616x1, .f32⟩
  | .hbm, ⟨74, _⟩ => ⟨S1x6, .f32⟩
  | .hbm, ⟨75, _⟩ => ⟨S6, .f32⟩
  | .hbm, ⟨76, _⟩ => ⟨S1x6, .f32⟩
  | .hbm, ⟨77, _⟩ => ⟨S1679616x6, .f32⟩
  | .hbm, ⟨78, _⟩ => ⟨S1679616x6, .f32⟩
  | .hbm, ⟨79, _⟩ => ⟨S1679616x6, .f32⟩
  | .hbm, ⟨80, _⟩ => ⟨S10077696, .f32⟩
  | .hbm, ⟨81, _⟩ => ⟨S10077696x1, .f32⟩
  | .hbm, ⟨82, _⟩ => ⟨S1x6, .f32⟩
  | .hbm, ⟨83, _⟩ => ⟨S6, .f32⟩
  | .hbm, ⟨84, _⟩ => ⟨S1x6, .f32⟩
  | .hbm, ⟨85, _⟩ => ⟨S10077696x6, .f32⟩
  | .hbm, ⟨86, _⟩ => ⟨S10077696x6, .f32⟩
  | .hbm, ⟨87, _⟩ => ⟨S10077696x6, .f32⟩
  | .hbm, ⟨88, _⟩ => ⟨S60466176, .f32⟩
  | .hbm, ⟨89, _⟩ => ⟨S60466176, .f32⟩
  | .hbm, ⟨90, _⟩ => ⟨S60466176, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_cst_0 : Ref sig .tc := ⟨.hbm, 91, rfl⟩
abbrev main_v86 : Ref sig .tc := ⟨.hbm, 92, rfl⟩
abbrev main_cst_1 : Ref sig .tc := ⟨.hbm, 93, rfl⟩
abbrev main_v87 : Ref sig .tc := ⟨.hbm, 94, rfl⟩
abbrev main_v88 : Ref sig .tc := ⟨.hbm, 95, rfl⟩

abbrev nD : Nat := 1
abbrev τ : Topo := Topo.v7x

variable {F : FTy → Type} [FloatOps F]

class Facts₀ : Prop where
  bcast_S10_S10x1_0 : S10.BroadcastsInDim S10x1 (![0] : Fin 1 → Fin S10x1.rank)
  bcast_S10x1_S10x6_0_1 : S10x1.BroadcastsInDim S10x6 (![0, 1] : Fin 2 → Fin S10x6.rank)
  bcast_S_S10x6 : S_.BroadcastsInDim S10x6 (![] : Fin 0 → Fin S10x6.rank)
  slices_S10x6_S1x6_0_0 : S10x6.Slices ![0, 0] S1x6
  shapeCasts_S1x6_S6 : S1x6.ShapeCasts S6
  bcast_S6_S6x1_0 : S6.BroadcastsInDim S6x1 (![0] : Fin 1 → Fin S6x1.rank)
  slices_S10x6_S1x6_1_0 : S10x6.Slices ![1, 0] S1x6
  bcast_S6_S1x6_1 : S6.BroadcastsInDim S1x6 (![1] : Fin 1 → Fin S1x6.rank)
  bcast_S6x1_S6x6_0_1 : S6x1.BroadcastsInDim S6x6 (![0, 1] : Fin 2 → Fin S6x6.rank)
  bcast_S1x6_S6x6_0_1 : S1x6.BroadcastsInDim S6x6 (![0, 1] : Fin 2 → Fin S6x6.rank)
  shapeCasts_S6x6_S36 : S6x6.ShapeCasts S36
  bcast_S36_S36x1_0 : S36.BroadcastsInDim S36x1 (![0] : Fin 1 → Fin S36x1.rank)
  slices_S10x6_S1x6_2_0 : S10x6.Slices ![2, 0] S1x6
  bcast_S36x1_S36x6_0_1 : S36x1.BroadcastsInDim S36x6 (![0, 1] : Fin 2 → Fin S36x6.rank)
  bcast_S1x6_S36x6_0_1 : S1x6.BroadcastsInDim S36x6 (![0, 1] : Fin 2 → Fin S36x6.rank)
  shapeCasts_S36x6_S216 : S36x6.ShapeCasts S216
  bcast_S216_S216x1_0 : S216.BroadcastsInDim S216x1 (![0] : Fin 1 → Fin S216x1.rank)
  slices_S10x6_S1x6_3_0 : S10x6.Slices ![3, 0] S1x6
  bcast_S216x1_S216x6_0_1 : S216x1.BroadcastsInDim S216x6 (![0, 1] : Fin 2 → Fin S216x6.rank)
  bcast_S1x6_S216x6_0_1 : S1x6.BroadcastsInDim S216x6 (![0, 1] : Fin 2 → Fin S216x6.rank)
  shapeCasts_S216x6_S1296 : S216x6.ShapeCasts S1296
  bcast_S1296_S1296x1_0 : S1296.BroadcastsInDim S1296x1 (![0] : Fin 1 → Fin S1296x1.rank)
  slices_S10x6_S1x6_4_0 : S10x6.Slices ![4, 0] S1x6
  bcast_S1296x1_S1296x6_0_1 : S1296x1.BroadcastsInDim S1296x6 (![0, 1] : Fin 2 → Fin S1296x6.rank)
  bcast_S1x6_S1296x6_0_1 : S1x6.BroadcastsInDim S1296x6 (![0, 1] : Fin 2 → Fin S1296x6.rank)
  shapeCasts_S1296x6_S7776 : S1296x6.ShapeCasts S7776
  bcast_S7776_S7776x1_0 : S7776.BroadcastsInDim S7776x1 (![0] : Fin 1 → Fin S7776x1.rank)
  slices_S10x6_S1x6_5_0 : S10x6.Slices ![5, 0] S1x6
  bcast_S7776x1_S7776x6_0_1 : S7776x1.BroadcastsInDim S7776x6 (![0, 1] : Fin 2 → Fin S7776x6.rank)
  bcast_S1x6_S7776x6_0_1 : S1x6.BroadcastsInDim S7776x6 (![0, 1] : Fin 2 → Fin S7776x6.rank)
  shapeCasts_S7776x6_S46656 : S7776x6.ShapeCasts S46656
  bcast_S46656_S46656x1_0 : S46656.BroadcastsInDim S46656x1 (![0] : Fin 1 → Fin S46656x1.rank)
  slices_S10x6_S1x6_6_0 : S10x6.Slices ![6, 0] S1x6
  bcast_S46656x1_S46656x6_0_1 : S46656x1.BroadcastsInDim S46656x6 (![0, 1] : Fin 2 → Fin S46656x6.rank)
  bcast_S1x6_S46656x6_0_1 : S1x6.BroadcastsInDim S46656x6 (![0, 1] : Fin 2 → Fin S46656x6.rank)
  shapeCasts_S46656x6_S279936 : S46656x6.ShapeCasts S279936
  bcast_S279936_S279936x1_0 : S279936.BroadcastsInDim S279936x1 (![0] : Fin 1 → Fin S279936x1.rank)
  slices_S10x6_S1x6_7_0 : S10x6.Slices ![7, 0] S1x6
  bcast_S279936x1_S279936x6_0_1 : S279936x1.BroadcastsInDim S279936x6 (![0, 1] : Fin 2 → Fin S279936x6.rank)
  bcast_S1x6_S279936x6_0_1 : S1x6.BroadcastsInDim S279936x6 (![0, 1] : Fin 2 → Fin S279936x6.rank)
  shapeCasts_S279936x6_S1679616 : S279936x6.ShapeCasts S1679616
  bcast_S1679616_S1679616x1_0 : S1679616.BroadcastsInDim S1679616x1 (![0] : Fin 1 → Fin S1679616x1.rank)
  slices_S10x6_S1x6_8_0 : S10x6.Slices ![8, 0] S1x6
  bcast_S1679616x1_S1679616x6_0_1 : S1679616x1.BroadcastsInDim S1679616x6 (![0, 1] : Fin 2 → Fin S1679616x6.rank)
  bcast_S1x6_S1679616x6_0_1 : S1x6.BroadcastsInDim S1679616x6 (![0, 1] : Fin 2 → Fin S1679616x6.rank)
  shapeCasts_S1679616x6_S10077696 : S1679616x6.ShapeCasts S10077696
  bcast_S10077696_S10077696x1_0 : S10077696.BroadcastsInDim S10077696x1 (![0] : Fin 1 → Fin S10077696x1.rank)
  slices_S10x6_S1x6_9_0 : S10x6.Slices ![9, 0] S1x6
  bcast_S10077696x1_S10077696x6_0_1 : S10077696x1.BroadcastsInDim S10077696x6 (![0, 1] : Fin 2 → Fin S10077696x6.rank)
  bcast_S1x6_S10077696x6_0_1 : S1x6.BroadcastsInDim S10077696x6 (![0, 1] : Fin 2 → Fin S10077696x6.rank)
  shapeCasts_S10077696x6_S60466176 : S10077696x6.ShapeCasts S60466176
  reducesTo_S60466176_S_d0 : S60466176.ReducesTo [0] S_
  h_S_ : 0 < S_.numel

variable [Facts₀]

class Facts : Prop extends Facts₀ where

variable [Facts]
-- ==== Proof.RuleWeights.lean ====
/-
  The arithmetic of a chain of outer products, on flat (row-major) indices.

  A vector of length n·6 obtained from a vector u of length n and a vector v of length 6 as the flattened outer product
  has, at the flat index i, the value u(i / 6) · v(i % 6). Chaining such steps from the left over ten vectors of length 6
  gives the 6¹⁰ weights of a rule table. The facts proved here, for functions on the natural numbers:

  * regrouping: a step applied to a product that is already split at n is a product split at 6·n, so the ten-fold chain
    at i is (the chain of the first three vectors at i / 6⁷) · (the chain of the last seven at i % 6⁷);
  * a sum over a·b consecutive indices is the double sum over a blocks of b;
  * for REAL weights and a real table, the weighted sum over the whole table is the sum over rows of the row weight
    times the column-weighted row sum, and the sum of all weights is the product of the two partial sums. These two
    use distributivity, which on the extended reals needs every quantity finite: hence the real-valued arguments.
-/
import Idealize.ShloMosaic.PureOps.Ideal.Laws

noncomputable section

namespace Cert.RuleWeights

open Finset

/-- A product split at n: the first factor read at the quotient, the second at the remainder. -/
def split (n : ℕ) (A B : ℕ → EReal) : ℕ → EReal := fun i => A (i / n) * B (i % n)

/-- One step of the chain: the flattened outer product with a vector of length 6. -/
def extend (u v : ℕ → EReal) : ℕ → EReal := split 6 u v

theorem extend_apply (u v : ℕ → EReal) (i : ℕ) : extend u v i = u (i / 6) * v (i % 6) := rfl

/-- A step after a product split at n is a product split at 6 · n: the quotient of the quotient is the quotient by
    the product, and the new low digit joins the second factor. -/
theorem extend_split (n : ℕ) (A B v : ℕ → EReal) : extend (split n A B) v = split (6 * n) A (extend B v) := by
  funext i
  show A (i / 6 / n) * B (i / 6 % n) * v (i % 6) = A (i / (6 * n)) * (B (i % (6 * n) / 6) * v (i % (6 * n) % 6))
  rw [Nat.div_div_eq_div_mul, Nat.mod_mul_right_div_self, Nat.mod_mul_right_mod, mul_assoc]

/-- The chain of three vectors. -/
def chain3 (h0 h1 h2 : ℕ → EReal) : ℕ → EReal := extend (extend h0 h1) h2

/-- The chain of seven vectors. -/
def chain7 (h3 h4 h5 h6 h7 h8 h9 : ℕ → EReal) : ℕ → EReal :=
  extend (extend (extend (extend (extend (extend h3 h4) h5) h6) h7) h8) h9

/-- The chain of ten vectors, nested from the left. -/
def chain10 (h0 h1 h2 h3 h4 h5 h6 h7 h8 h9 : ℕ → EReal) : ℕ → EReal :=
  extend (extend (extend (extend (extend (extend (extend (chain3 h0 h1 h2) h3) h4) h5) h6) h7) h8) h9

/-- The ten-fold chain is the three-fold chain at the high part times the seven-fold chain at the low part, the index
    split at 6⁷ = 279936. -/
theorem chain10_eq_split (h0 h1 h2 h3 h4 h5 h6 h7 h8 h9 : ℕ → EReal) :
    chain10 h0 h1 h2 h3 h4 h5 h6 h7 h8 h9 = split 279936 (chain3 h0 h1 h2) (chain7 h3 h4 h5 h6 h7 h8 h9) := by
  unfold chain10 chain7
  rw [show extend (chain3 h0 h1 h2) h3 = split 6 (chain3 h0 h1 h2) h3 from rfl]
  rw [extend_split, extend_split, extend_split, extend_split, extend_split, extend_split]

/-- A sum over a · b consecutive indices, block by block. -/
theorem sum_range_mul (a b : ℕ) (f : ℕ → EReal) :
    ∑ i ∈ range (a * b), f i = ∑ r ∈ range a, ∑ c ∈ range b, f (r * b + c) := by
  induction a with
  | zero => simp
  | succ a ih => rw [Nat.succ_mul, sum_range_add, ih, sum_range_succ]

/-- The coercion of a real sum is the sum of the coercions. -/
theorem coe_sum (s : Finset ℕ) (f : ℕ → ℝ) : ((∑ i ∈ s, f i : ℝ) : EReal) = ∑ i ∈ s, (f i : EReal) := by
  induction s using Finset.induction_on with
  | empty => simp
  | insert a s ha ih => rw [sum_insert ha, sum_insert ha, EReal.coe_add, ih]

/-- THE NUMERATOR. With real weights a (rows), b (columns) and a real table y, the sum over the whole table of
    (row weight · column weight) · entry is the sum over rows of the row weight times the row's column-weighted sum. -/
theorem weighted_sum (R C : ℕ) (hC : 0 < C) (a b y : ℕ → ℝ) :
    ∑ i ∈ range (R * C), split C (fun n => (a n : EReal)) (fun n => (b n : EReal)) i * (y i : EReal)
      = ∑ r ∈ range R, (a r : EReal) * ∑ c ∈ range C, (y (r * C + c) : EReal) * (b c : EReal) := by
  rw [sum_range_mul]
  refine sum_congr rfl fun r _ => ?_
  have inner : ∀ c ∈ range C, split C (fun n => (a n : EReal)) (fun n => (b n : EReal)) (r * C + c) * (y (r * C + c) : EReal)
      = ((a r * (y (r * C + c) * b c) : ℝ) : EReal) := by
    intro c hc
    have hc' : c < C := mem_range.1 hc
    have e1 : (r * C + c) / C = r := by
      rw [Nat.add_comm, Nat.add_mul_div_right _ _ hC, Nat.div_eq_of_lt hc', Nat.zero_add]
    have e2 : (r * C + c) % C = c := by
      rw [Nat.add_comm, Nat.add_mul_mod_self_right, Nat.mod_eq_of_lt hc']
    show (a ((r * C + c) / C) : EReal) * (b ((r * C + c) % C) : EReal) * (y (r * C + c) : EReal) = _
    rw [e1, e2, ← EReal.coe_mul, ← EReal.coe_mul]
    exact congrArg _ (by ring)
  refine (sum_congr rfl inner).trans ?_
  have hb : ∑ c ∈ range C, (y (r * C + c) : EReal) * (b c : EReal)
      = ((∑ c ∈ range C, y (r * C + c) * b c : ℝ) : EReal) := by
    rw [coe_sum]; exact sum_congr rfl fun c _ => (EReal.coe_mul _ _).symm
  rw [hb, ← coe_sum, ← mul_sum, EReal.coe_mul]

/-- THE DENOMINATOR. With real weights, the sum of all products (row weight · column weight) is the product of the sum of
    the row weights and the sum of the column weights. -/
theorem total_weight (R C : ℕ) (hC : 0 < C) (a b : ℕ → ℝ) :
    ∑ i ∈ range (R * C), split C (fun n => (a n : EReal)) (fun n => (b n : EReal)) i
      = (∑ r ∈ range R, (a r : EReal)) * ∑ c ∈ range C, (b c : EReal) := by
  have h := weighted_sum R C hC a b (fun _ => 1)
  simp only [EReal.coe_one, mul_one, one_mul] at h
  rw [h]
  have hb : ∑ c ∈ range C, (b c : EReal) = ((∑ c ∈ range C, b c : ℝ) : EReal) := (coe_sum _ _).symm
  have ha : ∑ r ∈ range R, (a r : EReal) = ((∑ r ∈ range R, a r : ℝ) : EReal) := (coe_sum _ _).symm
  rw [hb, ha, ← EReal.coe_mul, sum_mul, coe_sum (range R)]
  exact sum_congr rfl fun r _ => (EReal.coe_mul _ _).symm

end Cert.RuleWeights

end
-- ==== Proof.FlatView.lean ====
/-
  Arrays read on flat indices.

  A one-axis array of length n is read as a function on the natural numbers (zero past its end), a row of a two-axis
  array likewise. Two shape computations are then read at a flat index once, for every length:

  * a row cut out of an array of rows of length 6 (a slice of one row, then the unit axis dropped) is that row;
  * the flattened outer product of a vector u of length n with a vector v of length 6 (u laid out as a column and
    repeated along the rows, v as a row and repeated along the columns, the entrywise product, then the [n, 6]
    array re-read as one axis of length n · 6) has the value u(i / 6) · v(i % 6) at i.

  And the sum of a one-axis array over all its indices is the sum of its flat reading over the first n numbers.
-/
import Idealize.ShloMosaic.Lib.Pipeline.Value
import Idealize.ShloMosaic.Lib.ValueIdx
import proofs.«170063_j27496380629713_1_alg».proof.Proof.RuleWeights

noncomputable section

namespace Cert.RuleWeights

open Idealize.ShloMosaic Idealize.ShloMosaic.ValueIdx Finset

/-- A one-axis array as a function on the naturals: zero past its end. -/
def flat {n : ℕ} (x : (⟨1, ![n]⟩ : Shape).Idx → EReal) : ℕ → EReal :=
  fun i => if h : i < n then x (ix1 ⟨i, h⟩) else 0

theorem flat_of_lt {n : ℕ} (x : (⟨1, ![n]⟩ : Shape).Idx → EReal) {i : ℕ} (h : i < n) : flat x i = x (ix1 ⟨i, h⟩) :=
  dif_pos h

theorem flat_of_le {n : ℕ} (x : (⟨1, ![n]⟩ : Shape).Idx → EReal) {i : ℕ} (h : n ≤ i) : flat x i = 0 :=
  dif_neg (Nat.not_lt.2 h)

theorem flat_val {n : ℕ} (x : (⟨1, ![n]⟩ : Shape).Idx → EReal) (j : (⟨1, ![n]⟩ : Shape).Idx) : flat x (j 0).val = x j := by
  rw [flat_of_lt x (j 0).isLt]
  exact congrArg x (eq_ix1 j).symm

/-- The indices of a one-axis array are its coordinates. -/
def idxEquiv1 {n : ℕ} : (⟨1, ![n]⟩ : Shape).Idx ≃ Fin n where
  toFun j := j 0
  invFun a := ix1 a
  left_inv j := (eq_ix1 j).symm
  right_inv _ := rfl

/-- The sum of a one-axis array over its indices is the sum of its flat reading over the first n naturals. -/
theorem sum_idx1 {n : ℕ} (x : (⟨1, ![n]⟩ : Shape).Idx → EReal) : ∑ j, x j = ∑ i ∈ range n, flat x i := by
  rw [← Fin.sum_univ_eq_sum_range (flat x) n]
  refine Fintype.sum_equiv idxEquiv1 _ _ fun j => ?_
  exact (flat_val x j).symm

/-- Row k of an array of rows of length 6, as a function on the naturals: zero past its end. -/
def rowFlat {R : ℕ} (H : (⟨2, ![R, 6]⟩ : Shape).Idx → EReal) (k : Fin R) : ℕ → EReal :=
  fun p => if h : p < 6 then H (ix2 k ⟨p, h⟩) else 0

/-- A row cut out by a slice and re-read as one axis is that row. -/
theorem flat_row {R : ℕ} (k : ℕ) (hk : k < R) (H : (⟨2, ![R, 6]⟩ : Shape).Idx → EReal)
    (hsl : (⟨2, ![R, 6]⟩ : Shape).Slices ![k, 0] ⟨2, ![1, 6]⟩) (hs : (⟨2, ![1, 6]⟩ : Shape).ShapeCasts ⟨1, ![6]⟩) :
    flat (shapeCast ⟨1, ![6]⟩ (extractStridedSlice ⟨2, ![1, 6]⟩ ![k, 0] H hsl) hs) = rowFlat H ⟨k, hk⟩ := by
  funext p
  unfold flat rowFlat
  by_cases hp : p < 6
  · rw [dif_pos hp, dif_pos hp]
    refine (shapeCast_apply _ hs (ix1 ⟨p, hp⟩) (ix2 (0 : Fin 1) ⟨p, hp⟩) ?_).trans ?_
    · rw [Shape.rowMajor_val_two, Shape.rowMajor_val_one]
      show 0 * 6 + p = p
      omega
    · refine extractStridedSlice_apply _ H hsl _ (ix2 ⟨k, hk⟩ ⟨p, hp⟩) (fun a => match a with
        | ⟨0, _⟩ => by show k = k + 0; omega
        | ⟨1, _⟩ => by show p = 0 + p; omega)
  · rw [dif_neg hp, dif_neg hp]

/-- The flattened outer product with a vector of length 6, read at a flat index. -/
theorem flat_outer {n m : ℕ} (hm : m = n * 6)
    (u : (⟨1, ![n]⟩ : Shape).Idx → EReal) (v : (⟨1, ![6]⟩ : Shape).Idx → EReal)
    (hb1 : (⟨1, ![n]⟩ : Shape).BroadcastsInDim ⟨2, ![n, 1]⟩ ![0])
    (hb2 : (⟨2, ![n, 1]⟩ : Shape).BroadcastsInDim ⟨2, ![n, 6]⟩ ![0, 1])
    (hb3 : (⟨1, ![6]⟩ : Shape).BroadcastsInDim ⟨2, ![1, 6]⟩ ![1])
    (hb4 : (⟨2, ![1, 6]⟩ : Shape).BroadcastsInDim ⟨2, ![n, 6]⟩ ![0, 1])
    (hs : (⟨2, ![n, 6]⟩ : Shape).ShapeCasts ⟨1, ![m]⟩) :
    flat (shapeCast ⟨1, ![m]⟩ (mulf (F := Ideal) (φ := .f32)
        (broadcastInDim ⟨2, ![n, 6]⟩ ![0, 1] hb2 (broadcastInDim ⟨2, ![n, 1]⟩ ![0] hb1 u))
        (broadcastInDim ⟨2, ![n, 6]⟩ ![0, 1] hb4 (broadcastInDim ⟨2, ![1, 6]⟩ ![1] hb3 v))) hs)
      = extend (flat u) (flat v) := by
  funext i
  rw [extend_apply]
  by_cases hi : i < m
  · have hq : i / 6 < n := by omega
    have hr : i % 6 < 6 := Nat.mod_lt _ (by norm_num)
    rw [flat_of_lt _ hi, flat_of_lt u hq, flat_of_lt v hr]
    refine (shapeCast_apply _ hs (ix1 ⟨i, hi⟩) (ix2 ⟨i / 6, hq⟩ ⟨i % 6, hr⟩) ?_).trans ?_
    · rw [Shape.rowMajor_val_two, Shape.rowMajor_val_one]
      show i / 6 * 6 + i % 6 = i
      omega
    · rw [mulf_apply]
      congr 1
      · refine (broadcastInDim_apply _ hb2 _ _ (ix2 ⟨i / 6, hq⟩ (0 : Fin 1)) (fun a => match a with
          | ⟨0, _⟩ => by
            show i / 6 = if n = 1 then 0 else i / 6
            split_ifs with h1
            · omega
            · rfl
          | ⟨1, _⟩ => by show 0 = if (1 : ℕ) = 1 then 0 else i % 6; rw [if_pos rfl])).trans ?_
        exact broadcastInDim_apply _ hb1 u _ (ix1 ⟨i / 6, hq⟩) (fun a => match a with
          | ⟨0, _⟩ => by
            show i / 6 = if n = 1 then 0 else i / 6
            split_ifs with h1
            · omega
            · rfl)
      · refine (broadcastInDim_apply _ hb4 _ _ (ix2 (0 : Fin 1) ⟨i % 6, hr⟩) (fun a => match a with
          | ⟨0, _⟩ => by show 0 = if (1 : ℕ) = 1 then 0 else i / 6; rw [if_pos rfl]
          | ⟨1, _⟩ => by show i % 6 = if (6 : ℕ) = 1 then 0 else i % 6; rw [if_neg (by decide)])).trans ?_
        exact broadcastInDim_apply _ hb3 v _ (ix1 ⟨i % 6, hr⟩) (fun a => match a with
          | ⟨0, _⟩ => by show i % 6 = if (6 : ℕ) = 1 then 0 else i % 6; rw [if_neg (by decide)])
  · have hq : n ≤ i / 6 := by omega
    rw [flat_of_le _ (Nat.le_of_not_lt hi), flat_of_le u hq, zero_mul]

/-- The entrywise product of two one-axis arrays, read flat. -/
theorem flat_mulf {n : ℕ} (a b : FVec Ideal ⟨1, ![n]⟩ .f32) :
    flat (mulf a b) = fun i => flat a i * flat b i := by
  funext i
  by_cases hi : i < n
  · rw [flat_of_lt _ hi, flat_of_lt a hi, flat_of_lt b hi]; rfl
  · rw [flat_of_le _ (Nat.le_of_not_lt hi), flat_of_le a (Nat.le_of_not_lt hi), zero_mul]

/-- A two-axis array read row-major on flat indices: zero past its end. -/
def flat2 {R C : ℕ} (Y : (⟨2, ![R, C]⟩ : Shape).Idx → EReal) : ℕ → EReal :=
  fun i => if h : i < R * C then
    Y (ix2 ⟨i / C, Nat.div_lt_of_lt_mul (by rwa [Nat.mul_comm] at h)⟩
      ⟨i % C, Nat.mod_lt _ (Nat.pos_of_ne_zero fun h0 => by rw [h0, Nat.mul_zero] at h; exact Nat.not_lt_zero _ h)⟩)
  else 0

/-- The entry at row r and column c is the flat reading at r · C + c. -/
theorem flat2_ix2 {R C : ℕ} (Y : (⟨2, ![R, C]⟩ : Shape).Idx → EReal) (r : Fin R) (c : Fin C) :
    flat2 Y (r.val * C + c.val) = Y (ix2 r c) := by
  have hlt : r.val * C + c.val < R * C := by
    have h1 : (r.val + 1) * C ≤ R * C := Nat.mul_le_mul_right C r.isLt
    have h2 : r.val * C + c.val < (r.val + 1) * C := by rw [Nat.succ_mul]; exact Nat.add_lt_add_left c.isLt _
    exact lt_of_lt_of_le h2 h1
  unfold flat2
  rw [dif_pos hlt]
  have e1 : (r.val * C + c.val) / C = r.val := by
    rw [Nat.add_comm, Nat.add_mul_div_right _ _ (lt_of_le_of_lt (Nat.zero_le _) c.isLt), Nat.div_eq_of_lt c.isLt, Nat.zero_add]
  have e2 : (r.val * C + c.val) % C = c.val := by
    rw [Nat.add_comm, Nat.add_mul_mod_self_right, Nat.mod_eq_of_lt c.isLt]
  exact congrArg Y (funext fun a => match a with
    | ⟨0, _⟩ => Fin.ext e1
    | ⟨1, _⟩ => Fin.ext e2)

/-- A two-axis array re-read as one axis has the same flat reading. -/
theorem flat_reshape {R C m : ℕ} (hm : m = R * C) (Y : (⟨2, ![R, C]⟩ : Shape).Idx → EReal)
    (hs : (⟨2, ![R, C]⟩ : Shape).ShapeCasts ⟨1, ![m]⟩) : flat (shapeCast ⟨1, ![m]⟩ Y hs) = flat2 Y := by
  subst hm
  funext i
  unfold flat flat2
  by_cases hi : i < R * C
  · rw [dif_pos hi, dif_pos hi]
    refine shapeCast_apply Y hs _ _ ?_
    rw [Shape.rowMajor_val_two, Shape.rowMajor_val_one]
    show i / C * C + i % C = i
    exact Nat.div_add_mod' i C
  · rw [dif_neg hi, dif_neg hi]

/-- A two-axis array re-read with other extents of the same product has the same flat reading. -/
theorem flat2_reshape {R C R' C' : ℕ} (hm : R' * C' = R * C) (Y : (⟨2, ![R, C]⟩ : Shape).Idx → EReal)
    (hs : (⟨2, ![R, C]⟩ : Shape).ShapeCasts ⟨2, ![R', C']⟩) : flat2 (shapeCast ⟨2, ![R', C']⟩ Y hs) = flat2 Y := by
  funext i
  unfold flat2
  by_cases hi : i < R' * C'
  · rw [dif_pos hi, dif_pos (hm ▸ hi)]
    refine shapeCast_apply Y hs _ _ ?_
    rw [Shape.rowMajor_val_two, Shape.rowMajor_val_two]
    show i / C * C + i % C = i / C' * C' + i % C'
    rw [Nat.div_add_mod', Nat.div_add_mod']
  · rw [dif_neg hi, dif_neg (hm ▸ hi)]

/-- A one-axis array re-read with two axes has the same flat reading. -/
theorem flat2_unreshape {R C m : ℕ} (hm : m = R * C) (x : (⟨1, ![m]⟩ : Shape).Idx → EReal)
    (hs : (⟨1, ![m]⟩ : Shape).ShapeCasts ⟨2, ![R, C]⟩) : flat2 (shapeCast ⟨2, ![R, C]⟩ x hs) = flat x := by
  subst hm
  funext i
  unfold flat flat2
  by_cases hi : i < R * C
  · rw [dif_pos hi, dif_pos hi]
    refine shapeCast_apply x hs _ _ ?_
    rw [Shape.rowMajor_val_two, Shape.rowMajor_val_one]
    show i = i / C * C + i % C
    exact (Nat.div_add_mod' i C).symm
  · rw [dif_neg hi, dif_neg hi]

/-! ## The weights of a 10 × 6 array of memberships -/

section Weights
variable (H : (⟨2, ![10, 6]⟩ : Shape).Idx → EReal)

/-- The weight of a row of the table: the chain of the first three rows of memberships. -/
def rowWeights : ℕ → EReal := chain3 (rowFlat H 0) (rowFlat H 1) (rowFlat H 2)

/-- The weight of a column of the table: the chain of the last seven rows of memberships. -/
def colWeights : ℕ → EReal :=
  chain7 (rowFlat H 3) (rowFlat H 4) (rowFlat H 5) (rowFlat H 6) (rowFlat H 7) (rowFlat H 8) (rowFlat H 9)

/-- The weight of an entry of the table: the chain of all ten rows. -/
def weights : ℕ → EReal :=
  chain10 (rowFlat H 0) (rowFlat H 1) (rowFlat H 2) (rowFlat H 3) (rowFlat H 4) (rowFlat H 5) (rowFlat H 6) (rowFlat H 7)
    (rowFlat H 8) (rowFlat H 9)

theorem weights_eq_split : weights H = split 279936 (rowWeights H) (colWeights H) := chain10_eq_split ..

end Weights

end Cert.RuleWeights

end
-- ==== Proof.RefValue.lean ====
/-
  The reference, read on flat indices.

  The reference computes the 10 × 6 array of memberships, takes its ten rows, and chains them from the left by flattened
  outer products into the 6¹⁰ weights of the table; its numerator is the sum over the table of weight · entry, its
  denominator the sum of the weights, its result their quotient. Here each stage of the chain is identified with the
  chain of the rows on flat indices, and the two sums with sums over the first 6¹⁰ naturals.
-/
import proofs.«170063_j27496380629713_1_alg».proof.Proof.Gen.ReferenceIdeal.Read
import proofs.«170063_j27496380629713_1_alg».proof.Proof.FlatView

noncomputable section

namespace Cert.ReferenceIdeal.RefValue

open Cert.ReferenceIdeal Cert.ReferenceIdeal.Gen Cert.ReferenceIdeal.Read Cert.RuleWeights
open Idealize.ShloMosaic Idealize.ShloMosaic.ValueIdx Finset

variable (x0 : FVec Ideal S10 .f32) (x1 x2 : FVec Ideal S10x6 .f32) (x3 : FVec Ideal S10077696x6 .f32)

/-- The memberships, as the reference computes them. -/
abbrev memb : FVec Ideal S10x6 .f32 := val_main_v9 (F := Ideal) x0 x1 x2

/-! ## The ten rows -/

theorem row0 : flat (val_main_v11 (F := Ideal) x0 x1 x2) = rowFlat (memb x0 x1 x2) 0 := by
  unfold val_main_v11 val_main_v10
  exact flat_row 0 (by norm_num) _ _ _

theorem row1 : flat (val_main_v14 (F := Ideal) x0 x1 x2) = rowFlat (memb x0 x1 x2) 1 := by
  unfold val_main_v14 val_main_v13
  exact flat_row 1 (by norm_num) _ _ _

theorem row2 : flat (val_main_v22 (F := Ideal) x0 x1 x2) = rowFlat (memb x0 x1 x2) 2 := by
  unfold val_main_v22 val_main_v21
  exact flat_row 2 (by norm_num) _ _ _

theorem row3 : flat (val_main_v30 (F := Ideal) x0 x1 x2) = rowFlat (memb x0 x1 x2) 3 := by
  unfold val_main_v30 val_main_v29
  exact flat_row 3 (by norm_num) _ _ _

theorem row4 : flat (val_main_v38 (F := Ideal) x0 x1 x2) = rowFlat (memb x0 x1 x2) 4 := by
  unfold val_main_v38 val_main_v37
  exact flat_row 4 (by norm_num) _ _ _

theorem row5 : flat (val_main_v46 (F := Ideal) x0 x1 x2) = rowFlat (memb x0 x1 x2) 5 := by
  unfold val_main_v46 val_main_v45
  exact flat_row 5 (by norm_num) _ _ _

theorem row6 : flat (val_main_v54 (F := Ideal) x0 x1 x2) = rowFlat (memb x0 x1 x2) 6 := by
  unfold val_main_v54 val_main_v53
  exact flat_row 6 (by norm_num) _ _ _

theorem row7 : flat (val_main_v62 (F := Ideal) x0 x1 x2) = rowFlat (memb x0 x1 x2) 7 := by
  unfold val_main_v62 val_main_v61
  exact flat_row 7 (by norm_num) _ _ _

theorem row8 : flat (val_main_v70 (F := Ideal) x0 x1 x2) = rowFlat (memb x0 x1 x2) 8 := by
  unfold val_main_v70 val_main_v69
  exact flat_row 8 (by norm_num) _ _ _

theorem row9 : flat (val_main_v78 (F := Ideal) x0 x1 x2) = rowFlat (memb x0 x1 x2) 9 := by
  unfold val_main_v78 val_main_v77
  exact flat_row 9 (by norm_num) _ _ _

/-! ## The chain, one outer product at a time -/

theorem chain_2 : flat (val_main_v19 (F := Ideal) x0 x1 x2)
    = extend (rowFlat (memb x0 x1 x2) 0) (rowFlat (memb x0 x1 x2) 1) := by
  unfold val_main_v19 val_main_v18 val_main_v16 val_main_v17 val_main_v12 val_main_v15
  rw [flat_outer (n := 6) (m := 36) (by norm_num), row0, row1]

theorem chain_3 : flat (val_main_v27 (F := Ideal) x0 x1 x2) = rowWeights (memb x0 x1 x2) := by
  unfold val_main_v27 val_main_v26 val_main_v24 val_main_v25 val_main_v20 val_main_v23
  rw [flat_outer (n := 36) (m := 216) (by norm_num), chain_2, row2]
  rfl

theorem chain_4 : flat (val_main_v35 (F := Ideal) x0 x1 x2)
    = extend (rowWeights (memb x0 x1 x2)) (rowFlat (memb x0 x1 x2) 3) := by
  unfold val_main_v35 val_main_v34 val_main_v32 val_main_v33 val_main_v28 val_main_v31
  rw [flat_outer (n := 216) (m := 1296) (by norm_num), chain_3, row3]

theorem chain_5 : flat (val_main_v43 (F := Ideal) x0 x1 x2)
    = extend (extend (rowWeights (memb x0 x1 x2)) (rowFlat (memb x0 x1 x2) 3)) (rowFlat (memb x0 x1 x2) 4) := by
  unfold val_main_v43 val_main_v42 val_main_v40 val_main_v41 val_main_v36 val_main_v39
  rw [flat_outer (n := 1296) (m := 7776) (by norm_num), chain_4, row4]

theorem chain_6 : flat (val_main_v51 (F := Ideal) x0 x1 x2)
    = extend (extend (extend (rowWeights (memb x0 x1 x2)) (rowFlat (memb x0 x1 x2) 3)) (rowFlat (memb x0 x1 x2) 4))
        (rowFlat (memb x0 x1 x2) 5) := by
  unfold val_main_v51 val_main_v50 val_main_v48 val_main_v49 val_main_v44 val_main_v47
  rw [flat_outer (n := 7776) (m := 46656) (by norm_num), chain_5, row5]

theorem chain_7 : flat (val_main_v59 (F := Ideal) x0 x1 x2)
    = extend (extend (extend (extend (rowWeights (memb x0 x1 x2)) (rowFlat (memb x0 x1 x2) 3)) (rowFlat (memb x0 x1 x2) 4))
        (rowFlat (memb x0 x1 x2) 5)) (rowFlat (memb x0 x1 x2) 6) := by
  unfold val_main_v59 val_main_v58 val_main_v56 val_main_v57 val_main_v52 val_main_v55
  rw [flat_outer (n := 46656) (m := 279936) (by norm_num), chain_6, row6]

theorem chain_8 : flat (val_main_v67 (F := Ideal) x0 x1 x2)
    = extend (extend (extend (extend (extend (rowWeights (memb x0 x1 x2)) (rowFlat (memb x0 x1 x2) 3))
        (rowFlat (memb x0 x1 x2) 4)) (rowFlat (memb x0 x1 x2) 5)) (rowFlat (memb x0 x1 x2) 6)) (rowFlat (memb x0 x1 x2) 7) := by
  unfold val_main_v67 val_main_v66 val_main_v64 val_main_v65 val_main_v60 val_main_v63
  rw [flat_outer (n := 279936) (m := 1679616) (by norm_num), chain_7, row7]

theorem chain_9 : flat (val_main_v75 (F := Ideal) x0 x1 x2)
    = extend (extend (extend (extend (extend (extend (rowWeights (memb x0 x1 x2)) (rowFlat (memb x0 x1 x2) 3))
        (rowFlat (memb x0 x1 x2) 4)) (rowFlat (memb x0 x1 x2) 5)) (rowFlat (memb x0 x1 x2) 6)) (rowFlat (memb x0 x1 x2) 7))
        (rowFlat (memb x0 x1 x2) 8) := by
  unfold val_main_v75 val_main_v74 val_main_v72 val_main_v73 val_main_v68 val_main_v71
  rw [flat_outer (n := 1679616) (m := 10077696) (by norm_num), chain_8, row8]

/-- The reference's weight vector is the chain of the ten rows of memberships. -/
theorem chain_10 : flat (val_main_v83 (F := Ideal) x0 x1 x2) = weights (memb x0 x1 x2) := by
  unfold val_main_v83 val_main_v82 val_main_v80 val_main_v81 val_main_v76 val_main_v79
  rw [flat_outer (n := 10077696) (m := 60466176) (by norm_num), chain_9, row9]
  rfl

/-! ## The two sums and the quotient -/

/-- The table re-read as one axis has the table's flat reading. -/
theorem table_flat : flat (val_main_v84 (F := Ideal) x3) = flat2 x3 := by
  unfold val_main_v84
  exact flat_reshape (by norm_num) _ _

/-- The denominator: the sum of the weights. -/
theorem den_eq : ∑ j : S60466176.Idx, val_main_v83 (F := Ideal) x0 x1 x2 j
    = ∑ i ∈ range 60466176, weights (memb x0 x1 x2) i := by
  rw [sum_idx1, chain_10]

/-- The numerator: the sum over the table of weight · entry. -/
theorem num_eq : ∑ j : S60466176.Idx, val_main_v85 (F := Ideal) x0 x1 x2 x3 j
    = ∑ i ∈ range 60466176, weights (memb x0 x1 x2) i * flat2 x3 i := by
  unfold val_main_v85
  rw [sum_idx1, flat_mulf, chain_10, table_flat]

/-- The reference's result: the quotient of the two sums, each started from the zero word. -/
theorem result_eq (i : S_.Idx) : val_main_v88 (F := Ideal) x0 x1 x2 x3 i
    = FloatOps.hostDivf (F := Ideal) (φ := .f32)
        (Ideal.ofBits .f32 0x00000000#32 + ∑ i ∈ range 60466176, weights (memb x0 x1 x2) i * flat2 x3 i)
        (Ideal.ofBits .f32 0x00000000#32 + ∑ i ∈ range 60466176, weights (memb x0 x1 x2) i) := by
  rw [val_main_v88_apply, val_main_v86_apply, val_main_v87_apply, num_eq, den_eq]
  rfl

end Cert.ReferenceIdeal.RefValue

end
-- ==== Proof.Membership.lean ====
/-
  The Gaussian memberships.

  For an input vector X of length 10 and centre and width tables a, b of shape [10, 6], the membership of input i in
  part p is exp(−(a[i,p] − X[i])² / (2 · b[i,p]²)). Both programs compute this array with the same operations. On the
  extended reals the quotient is a real number when the width is not zero, and when it is zero the quotient of a
  number that is not positive by zero is −∞; never +∞. So the exponential is always a real number: with real inputs
  every membership is real, which is what lets the weighted sums be regrouped.
-/
import Idealize.ShloMosaic.PureOps.Ideal.Laws
import Idealize.ShloMosaic.Lib.ValueIdx
import Idealize.ShloMosaic.Lib.Pipeline.Value

noncomputable section

namespace Cert.RuleWeights

open Idealize.ShloMosaic Idealize.ShloMosaic.ValueIdx

/-- The word 0x40000000 is the number 2. -/
theorem ofBits_two : Ideal.ofBits .f32 0x40000000#32 = ((2 : ℝ) : EReal) := by
  simp [Ideal.ofBits, Ideal.ieee, -EReal.coe_mul]; norm_num

/-- The memberships as both programs compute them: X laid out as a column and repeated along the rows, subtracted
    from the centres, squared, negated, divided by twice the squared widths, exponentiated. -/
def membership (X : FVec Ideal ⟨1, ![10]⟩ .f32) (a b : FVec Ideal ⟨2, ![10, 6]⟩ .f32)
    (h1 : (⟨1, ![10]⟩ : Shape).BroadcastsInDim ⟨2, ![10, 1]⟩ ![0])
    (h2 : (⟨2, ![10, 1]⟩ : Shape).BroadcastsInDim ⟨2, ![10, 6]⟩ ![0, 1])
    (h3 : (⟨0, ![]⟩ : Shape).BroadcastsInDim ⟨2, ![10, 6]⟩ ![]) : FVec Ideal ⟨2, ![10, 6]⟩ .f32 :=
  Host.exp (Host.divf
    (Host.negf (mulf
      (subf a (broadcastInDim ⟨2, ![10, 6]⟩ ![0, 1] h2 (broadcastInDim ⟨2, ![10, 1]⟩ ![0] h1 X)))
      (subf a (broadcastInDim ⟨2, ![10, 6]⟩ ![0, 1] h2 (broadcastInDim ⟨2, ![10, 1]⟩ ![0] h1 X)))))
    (mulf (broadcastInDim ⟨2, ![10, 6]⟩ ![] h3 (constant (F := Ideal) ⟨0, ![]⟩ .f32 0x40000000#32)) (mulf b b)))

variable (X : FVec Ideal ⟨1, ![10]⟩ .f32) (a b : FVec Ideal ⟨2, ![10, 6]⟩ .f32)
  (h1 : (⟨1, ![10]⟩ : Shape).BroadcastsInDim ⟨2, ![10, 1]⟩ ![0])
  (h2 : (⟨2, ![10, 1]⟩ : Shape).BroadcastsInDim ⟨2, ![10, 6]⟩ ![0, 1])
  (h3 : (⟨0, ![]⟩ : Shape).BroadcastsInDim ⟨2, ![10, 6]⟩ ![])

/-- X repeated along the rows, read at an entry: X at the entry's row. -/
theorem column_apply (j : (⟨2, ![10, 6]⟩ : Shape).Idx) :
    broadcastInDim ⟨2, ![10, 6]⟩ ![0, 1] h2 (broadcastInDim ⟨2, ![10, 1]⟩ ![0] h1 X) j = X (ix1 (j 0)) := by
  refine (broadcastInDim_apply _ h2 _ j (ix2 (j 0) (0 : Fin 1)) (fun a => match a with
    | ⟨0, _⟩ => by show (j 0).val = if (10 : ℕ) = 1 then 0 else (j 0).val; rw [if_neg (by decide)]
    | ⟨1, _⟩ => by show 0 = if (1 : ℕ) = 1 then 0 else (j 1).val; rw [if_pos rfl])).trans ?_
  exact broadcastInDim_apply _ h1 X _ (ix1 (j 0)) (fun a => match a with
    | ⟨0, _⟩ => by show (j 0).val = if (10 : ℕ) = 1 then 0 else (j 0).val; rw [if_neg (by decide)])

/-- One membership, as a formula on the extended reals. -/
theorem membership_apply (j : (⟨2, ![10, 6]⟩ : Shape).Idx) :
    membership X a b h1 h2 h3 j
      = Ideal.exp (Ideal.div (-((a j - X (ix1 (j 0))) * (a j - X (ix1 (j 0)))))
          (Ideal.ofBits .f32 0x40000000#32 * (b j * b j))) := by
  show Ideal.exp (Ideal.div (-((a j - broadcastInDim ⟨2, ![10, 6]⟩ ![0, 1] h2 (broadcastInDim ⟨2, ![10, 1]⟩ ![0] h1 X) j)
      * (a j - broadcastInDim ⟨2, ![10, 6]⟩ ![0, 1] h2 (broadcastInDim ⟨2, ![10, 1]⟩ ![0] h1 X) j)))
    (broadcastInDim ⟨2, ![10, 6]⟩ ![] h3 (constant (F := Ideal) ⟨0, ![]⟩ .f32 0x40000000#32) j * (b j * b j))) = _
  rw [column_apply]
  rfl

/-- With real inputs every membership is a real number. -/
theorem membership_real (hX : ∀ i, ∃ r : ℝ, X i = r) (ha : ∀ j, ∃ r : ℝ, a j = r) (hb : ∀ j, ∃ r : ℝ, b j = r)
    (j : (⟨2, ![10, 6]⟩ : Shape).Idx) : ∃ r : ℝ, membership X a b h1 h2 h3 j = r := by
  rw [membership_apply]
  obtain ⟨x, hx⟩ := hX (ix1 (j 0))
  obtain ⟨p, hp⟩ := ha j
  obtain ⟨q, hq⟩ := hb j
  rw [hx, hp, hq, ofBits_two]
  have e1 : (-(((p : EReal) - x) * ((p : EReal) - x))) = ((-((p - x) * (p - x)) : ℝ) : EReal) := by
    rw [EReal.coe_neg, EReal.coe_mul, EReal.coe_sub]
  have e2 : ((2 : ℝ) : EReal) * ((q : EReal) * q) = ((2 * (q * q) : ℝ) : EReal) := by
    rw [EReal.coe_mul, EReal.coe_mul]
  rw [e1, e2]
  unfold Ideal.div
  by_cases hz : ((2 * (q * q) : ℝ) : EReal) = 0
  · rw [if_pos hz, if_neg]
    · exact ⟨0, rfl⟩
    · rw [EReal.coe_pos]
      have := mul_self_nonneg (p - x)
      linarith
  · rw [if_neg hz, ← EReal.coe_inv, ← EReal.coe_mul]
    exact ⟨_, rfl⟩

end Cert.RuleWeights

end
-- ==== Proof.KerHost.lean ====
/-
  The kernel's host side before its one region, read on flat indices.

  Before the region the kernel computes the memberships as the reference does, chains the first three rows into the 216
  row weights and the last seven into the 279936 column weights, re-reads the table as 216 rows of 279936 entries and
  the column weights as one row. Each is identified here with its flat reading.
-/
import proofs.«170063_j27496380629713_1_alg».proof.Proof.Gen.KernelIdeal.Frame
import proofs.«170063_j27496380629713_1_alg».proof.Proof.FlatView
import proofs.«170063_j27496380629713_1_alg».proof.Proof.Membership
import Idealize.ShloMosaic.Lib.StableHlo.Run

set_option maxRecDepth 16384

noncomputable section

namespace Cert.KernelIdeal.KerValue

open Cert.KernelIdeal Cert.KernelIdeal.Gen Cert.RuleWeights
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The memberships of the launch contents. -/
abbrev memb (c : Dev nD) : FVec Ideal S10x6 .f32 :=
  membership (m ((c.tc : Thread nD τ).loc main_arg0)) (m ((c.tc : Thread nD τ).loc main_arg1))
    (m ((c.tc : Thread nD τ).loc main_arg2)) bcast_S10_S10x1_0 bcast_S10x1_S10x6_0_1 bcast_S_S10x6

/-- The table of the launch contents, on flat indices. -/
abbrev table (c : Dev nD) : ℕ → EReal := flat2 (R := 10077696) (C := 6) (m ((c.tc : Thread nD τ).loc main_arg3))

set_option maxHeartbeats 4000000 in
/-- The row weights the region's tail multiplies by: the chain of the first three rows of memberships. -/
theorem rows_flat (c : Dev nD) : flat (n := 216) (V m c main_v27) = rowWeights (memb m c) := by
  show flat (n := 216) (StableHlo.after hostOps0 (fun b => m (c, b)) (Proc.devRef .tc main_v27)) = _
  after_results_simp
  refine (flat_outer (n := 36) (m := 216) (by norm_num) _ _ _ _ _ _ _).trans ?_
  refine congrArg₂ extend ((flat_outer (n := 6) (m := 36) (by norm_num) _ _ _ _ _ _ _).trans (congrArg₂ extend ?_ ?_)) ?_
  · exact flat_row 0 (by norm_num) _ _ _
  · exact flat_row 1 (by norm_num) _ _ _
  · exact flat_row 2 (by norm_num) _ _ _

set_option maxHeartbeats 8000000 in
/-- The column weights: the chain of the last seven rows of memberships. -/
theorem cols_flat (c : Dev nD) : flat (n := 279936) (V m c main_v77) = colWeights (memb m c) := by
  show flat (n := 279936) (StableHlo.after hostOps0 (fun b => m (c, b)) (Proc.devRef .tc main_v77)) = _
  after_results_simp
  refine (flat_outer (n := 46656) (m := 279936) (by norm_num) _ _ _ _ _ _ _).trans (congrArg₂ extend ?_ ?_)
  · refine (flat_outer (n := 7776) (m := 46656) (by norm_num) _ _ _ _ _ _ _).trans (congrArg₂ extend ?_ ?_)
    · refine (flat_outer (n := 1296) (m := 7776) (by norm_num) _ _ _ _ _ _ _).trans (congrArg₂ extend ?_ ?_)
      · refine (flat_outer (n := 216) (m := 1296) (by norm_num) _ _ _ _ _ _ _).trans (congrArg₂ extend ?_ ?_)
        · refine (flat_outer (n := 36) (m := 216) (by norm_num) _ _ _ _ _ _ _).trans (congrArg₂ extend ?_ ?_)
          · refine (flat_outer (n := 6) (m := 36) (by norm_num) _ _ _ _ _ _ _).trans (congrArg₂ extend ?_ ?_)
            · exact flat_row 3 (by norm_num) _ _ _
            · exact flat_row 4 (by norm_num) _ _ _
          · exact flat_row 5 (by norm_num) _ _ _
        · exact flat_row 6 (by norm_num) _ _ _
      · exact flat_row 7 (by norm_num) _ _ _
    · exact flat_row 8 (by norm_num) _ _ _
  · exact flat_row 9 (by norm_num) _ _ _

set_option maxHeartbeats 4000000 in
/-- The region's first operand is the table re-read as 216 rows: the table's flat reading. -/
theorem table_flat (c : Dev nD) : flat2 (R := 216) (C := 279936) (V m c main_v78) = table m c := by
  show flat2 (R := 216) (C := 279936) (StableHlo.after hostOps0 (fun b => m (c, b)) (Proc.devRef .tc main_v78)) = _
  after_results_simp
  exact flat2_reshape (by norm_num) _ _

set_option maxHeartbeats 8000000 in
/-- The region's second operand is the column weights re-read as one row. -/
theorem colrow_eq (c : Dev nD) :
    V m c main_v79 = shapeCast S1x279936 (V m c main_v77) shapeCasts_S279936_S1x279936 := by
  show StableHlo.after hostOps0 (fun b => m (c, b)) (Proc.devRef .tc main_v79)
    = shapeCast S1x279936 (StableHlo.after hostOps0 (fun b => m (c, b)) (Proc.devRef .tc main_v77)) shapeCasts_S279936_S1x279936
  after_results_simp
  rfl

/-- So its flat reading is the column weights. -/
theorem colrow_flat (c : Dev nD) : flat2 (R := 1) (C := 279936) (V m c main_v79) = colWeights (memb m c) := by
  rw [colrow_eq]
  exact (flat2_unreshape (by norm_num) _ _).trans (cols_flat m c)

end Cert.KernelIdeal.KerValue

end
-- ==== Proof.KerAcc.lean ====
/-
  The kernel's one region: a matrix-vector product accumulated over 27 column tiles.

  At each grid point the body adds, to an accumulator of 216 entries that it carries from point to point, the row sums of
  (tile of the table) · (tile of the column weights repeated along the rows); it clears the accumulator before the first
  point and copies it to the output after the last. So after point n the accumulator's entry r is the sum over the tiles
  0 … n of the tile's weighted row sum, and the output ends holding, at entry r, the sum over all 279936 columns of
  (table entry) · (column weight): the tiles are consecutive stretches of 10368 columns.
-/
import proofs.«170063_j27496380629713_1_alg».proof.Proof.KerHost
import Idealize.ShloMosaic.PureOps.Ideal.Laws
import Idealize.ShloMosaic.Lib.Tactic

set_option maxRecDepth 16384

noncomputable section

namespace Cert.KernelIdeal.KerValue

open Cert.KernelIdeal Cert.KernelIdeal.Gen Cert.RuleWeights
open Idealize.ShloMosaic Idealize.ShloMosaic.TcCoe Idealize.ShloMosaic.ValueIdx Idealize.SL.Sem
open Idealize.ShloMosaic.Pipeline (Dat)

/-! ## What each case of the body leaves, as values -/

section Pieces
variable {F : FTy → Type} [FloatOps F]

theorem hz : (![0, 0] : Fin 2 → Nat) = fun _ => 0 := funext fun a => by fin_cases a <;> rfl

/-- The first point: the accumulator is cleared, then updated; it ends at the update of the cleared one. -/
theorem scratch_A (c : Dev nD) (i : grid0.Coords) (arg1 : Memref sig .tc .vmem S216x10368 .f32) (harg1 : arg1.IsWhole)
    (arg2 : Memref sig .tc .vmem S1x10368 .f32) (harg2 : arg2.IsWhole) (arg3 : Memref sig .tc .vmem S216x1 .f32) (harg3 : arg3.IsWhole)
    (arg4 : Memref sig .tc .vmem S216x1 .f32) (harg4 : arg4.IsWhole) (hc0 : cond0_0 i) (hc1 : ¬cond0_1 i)
    (x0 : Vec F S216x10368 .f32) (x1 : Vec F S1x10368 .f32) :
    sout0_A_0 c i arg1 harg1 arg2 harg2 arg3 harg3 arg4 harg4 hc0 hc1 x0 x1 = k0_pay2 x0 x1 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S216x1) hz, View.readCov_unit_zero (S := S216x1) _ hz]
  simp only [View.readAt_eq_ld, harg1.read_unread, harg2.read_unread, harg4.read_unread, View.ld_unit_zero (S := S216x10368) hz,
    View.ld_unit_zero (S := S1x10368) hz, View.ld_unit_zero (S := S216x1) hz]

/-- A middle point: the accumulator ends at the update of what the point before left. -/
theorem scratch_B (c : Dev nD) (i : grid0.Coords) (arg1 : Memref sig .tc .vmem S216x10368 .f32) (harg1 : arg1.IsWhole)
    (arg2 : Memref sig .tc .vmem S1x10368 .f32) (harg2 : arg2.IsWhole) (arg3 : Memref sig .tc .vmem S216x1 .f32) (harg3 : arg3.IsWhole)
    (arg4 : Memref sig .tc .vmem S216x1 .f32) (harg4 : arg4.IsWhole) (hc0 : ¬cond0_0 i) (hc1 : ¬cond0_1 i)
    (x0 : Vec F S216x10368 .f32) (x1 : Vec F S1x10368 .f32) (xs0 : Vec F S216x1 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz]
  simp only [View.readAt_eq_ld, harg1.read_unread, harg2.read_unread, harg4.read_unread, View.ld_unit_zero (S := S216x10368) hz,
    View.ld_unit_zero (S := S1x10368) hz, View.ld_unit_zero (S := S216x1) hz]

/-- The last point: the accumulator likewise, -/
theorem scratch_C (c : Dev nD) (i : grid0.Coords) (arg1 : Memref sig .tc .vmem S216x10368 .f32) (harg1 : arg1.IsWhole)
    (arg2 : Memref sig .tc .vmem S1x10368 .f32) (harg2 : arg2.IsWhole) (arg3 : Memref sig .tc .vmem S216x1 .f32) (harg3 : arg3.IsWhole)
    (arg4 : Memref sig .tc .vmem S216x1 .f32) (harg4 : arg4.IsWhole) (hc0 : ¬cond0_0 i) (hc1 : cond0_1 i)
    (x0 : Vec F S216x10368 .f32) (x1 : Vec F S1x10368 .f32) (xs0 : Vec F S216x1 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread, View.ld_unit_zero (S := S216x10368) hz,
    View.ld_unit_zero (S := S1x10368) hz, View.ld_unit_zero (S := S216x1) hz]

/-- and the output receives the accumulator just written. -/
theorem out_C (c : Dev nD) (i : grid0.Coords) (arg1 : Memref sig .tc .vmem S216x10368 .f32) (harg1 : arg1.IsWhole)
    (arg2 : Memref sig .tc .vmem S1x10368 .f32) (harg2 : arg2.IsWhole) (arg3 : Memref sig .tc .vmem S216x1 .f32) (harg3 : arg3.IsWhole)
    (arg4 : Memref sig .tc .vmem S216x1 .f32) (harg4 : arg4.IsWhole) (hc0 : ¬cond0_0 i) (hc1 : cond0_1 i)
    (x0 : Vec F S216x10368 .f32) (x1 : Vec F S1x10368 .f32) (xs0 : Vec F S216x1 .f32) :
    out0_C_2 c i arg1 harg1 arg2 harg2 arg3 harg3 arg4 harg4 hc0 hc1 x0 x1 xs0 = k0_pay2 x0 x1 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread, View.ld_unit_zero (S := S216x10368) hz,
    View.ld_unit_zero (S := S1x10368) hz, View.ld_unit_zero (S := S216x1) hz, View.readCov_unit_zero (S := S216x1) _ hz]

end Pieces

/-! ## The update at an entry, on the extended reals -/

/-- The accumulator's update at an entry: what it held plus the sum over the tile's columns of
    table entry · column weight. -/
theorem pay2_apply (x0 : FVec Ideal S216x10368 .f32) (x1 : FVec Ideal S1x10368 .f32) (acc : FVec Ideal S216x1 .f32)
    (r : Fin 216) :
    k0_pay2 (F := Ideal) x0 x1 acc (ix2 r (0 : Fin 1))
      = acc (ix2 r (0 : Fin 1)) + ∑ l : Fin 10368, x0 (ix2 r l) * x1 (ix2 (0 : Fin 1) l) := by
  unfold k0_pay2
  dsimp only
  simp only [shapeCast_self]
  show acc (ix2 r (0 : Fin 1)) + shapeCast S216x1 _ shapeCasts_S216_S216x1 (ix2 r (0 : Fin 1)) = _
  congr 1
  refine (shapeCast_apply _ shapeCasts_S216_S216x1 (ix2 r (0 : Fin 1)) (ix1 r) ?_).trans ?_
  · rw [Shape.rowMajor_val_two, Shape.rowMajor_val_one]
    show r.val = r.val * 1 + 0
    omega
  · refine (Ideal.multiReduction_add_single _ 0x00000000#32 reduces_S216x10368_S216 (.inl rfl) rfl (ix1 r)).trans ?_
    refine Finset.sum_congr rfl fun l _ => ?_
    show x0 _ * broadcastTo S216x10368 x1 broadcasts_S1x10368_S216x10368 _ = _
    congr 1
    · exact congrArg x0 (funext fun a => match a with
        | ⟨0, _⟩ => rfl
        | ⟨1, _⟩ => rfl)
    · exact broadcastTo_apply x1 broadcasts_S1x10368_S216x10368 _ (ix2 (0 : Fin 1) l) (fun a => match a with
        | ⟨0, _⟩ => by show 0 = if (1 : ℕ) = 1 then 0 else _; rw [if_pos rfl]
        | ⟨1, _⟩ => by show l.val = if (10368 : ℕ) = 1 then 0 else l.val; rw [if_neg (by decide)])

/-- The cleared accumulator holds zero. -/
theorem pay1_apply (j : S216x1.Idx) : k0_pay1 (F := Ideal) j = 0 := by
  unfold k0_pay1
  simp only [shapeCast_self]
  exact Ideal.ofBits_zero_f32

/-! ## The blocks the region stages, read at an entry -/

section Region
variable (m : (ℓ : Loc nD τ sig) → Buf (Elt Ideal) ℓ)

/-- The tile of the table at point t, and the tile of the column weights. -/
abbrev tableTile (c : Dev nD) (t : Fin cfg0.N) : FVec Ideal S216x10368 .f32 := iblk m c 0 t
abbrev weightTile (c : Dev nD) (t : Fin cfg0.N) : FVec Ideal S1x10368 .f32 := iblk m c 1 t

/-- Both input windows step along the columns with the point and stay at row block 0. -/
theorem tile_index : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, win0_0.index t (0 : Fin 2) = 0 ∧ win0_0.index t (1 : Fin 2) = t.val
    ∧ win0_1.index t (0 : Fin 2) = 0 ∧ win0_1.index t (1 : Fin 2) = t.val)

theorem point_lt (t : Fin cfg0.N) : t.val < 27 := lt_of_lt_of_eq t.isLt N_0

/-- Entry (r, l) of the table's tile at point t is the table at row r, column 10368 · t + l. -/
theorem tableTile_apply (c : Dev nD) (t : Fin cfg0.N) (r : Fin 216) (l : Fin 10368) :
    tableTile m c t (ix2 r l) = table m c (r.val * 279936 + (t.val * 10368 + l.val)) := by
  have ht := point_lt t
  have hk : t.val * 10368 + l.val < 279936 := by have := l.isLt; omega
  have e : tableTile m c t (ix2 r l) = V m c main_v78 (ix2 r ⟨t.val * 10368 + l.val, hk⟩) := by
    unfold tableTile iblk
    rw [View.read_apply]
    show V m c main_v78 _ = V m c main_v78 _
    congr 1
    funext a
    apply Fin.ext
    match a with
    | ⟨0, _⟩ => show win0_0.index t 0 * 216 + 1 * r.val = r.val; rw [(tile_index t).1]; omega
    | ⟨1, _⟩ => show win0_0.index t 1 * 10368 + 1 * l.val = t.val * 10368 + l.val; rw [(tile_index t).2.1]; omega
  rw [e, ← table_flat m c]
  exact (flat2_ix2 (R := 216) (C := 279936) (V m c main_v78) r ⟨t.val * 10368 + l.val, hk⟩).symm

/-- Entry (0, l) of the column weights' tile at point t is the column weight of column 10368 · t + l. -/
theorem weightTile_apply (c : Dev nD) (t : Fin cfg0.N) (l : Fin 10368) :
    weightTile m c t (ix2 (0 : Fin 1) l) = colWeights (memb m c) (t.val * 10368 + l.val) := by
  have ht := point_lt t
  have hk : t.val * 10368 + l.val < 279936 := by have := l.isLt; omega
  have e : weightTile m c t (ix2 (0 : Fin 1) l) = V m c main_v79 (ix2 (0 : Fin 1) ⟨t.val * 10368 + l.val, hk⟩) := by
    unfold weightTile iblk
    rw [View.read_apply]
    show V m c main_v79 _ = V m c main_v79 _
    congr 1
    funext a
    apply Fin.ext
    match a with
    | ⟨0, _⟩ => show win0_1.index t 0 * 1 + 1 * 0 = 0; rw [(tile_index t).2.2.1]
    | ⟨1, _⟩ => show win0_1.index t 1 * 10368 + 1 * l.val = t.val * 10368 + l.val; rw [(tile_index t).2.2.2]; omega
  rw [e, ← colrow_flat m c]
  have := flat2_ix2 (R := 1) (C := 279936) (V m c main_v79) (0 : Fin 1) ⟨t.val * 10368 + l.val, hk⟩
  rw [show ((0 : Fin 1).val * 279936 + (⟨t.val * 10368 + l.val, hk⟩ : Fin 279936).val) = t.val * 10368 + l.val from by
    show 0 * 279936 + (t.val * 10368 + l.val) = _; omega] at this
  exact this.symm

/-! ## The accumulator, point by point -/

/-- Tile j's contribution to row r: the sum over its 10368 columns of table entry · column weight. -/
def tileSum (c : Dev nD) (r j : ℕ) : EReal :=
  ∑ l ∈ Finset.range 10368, table m c (r * 279936 + (j * 10368 + l)) * colWeights (memb m c) (j * 10368 + l)

theorem tile_eq (c : Dev nD) (t : Fin cfg0.N) (r : Fin 216) :
    ∑ l : Fin 10368, tableTile m c t (ix2 r l) * weightTile m c t (ix2 (0 : Fin 1) l) = tileSum m c r.val t.val := by
  unfold tileSum
  rw [← Fin.sum_univ_eq_sum_range
    (fun l => table m c (r.val * 279936 + (t.val * 10368 + l)) * colWeights (memb m c) (t.val * 10368 + l)) 10368]
  exact Finset.sum_congr rfl fun l _ => by rw [tableTile_apply, weightTile_apply]

/-- After point n the accumulator's entry r is the sum of the contributions of the tiles 0 … n. -/
theorem acc_eq (c : Dev nD) : ∀ (n : ℕ) (h : n < cfg0.N) (r : Fin 216),
    (outsAt0 m c n h).2 (ix2 r (0 : Fin 1)) = ∑ j ∈ Finset.range (n + 1), tileSum m c r.val j
  | 0, h, r => by
    rw [outsAt0_A m c ⟨0, h⟩ (Nat.zero_mod _) (by show ¬(0 : ℕ) % 27 = 26; decide)]
    dsimp only
    refine (congrFun (scratch_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (tableTile m c ⟨0, h⟩) (weightTile m c ⟨0, h⟩))
      (ix2 r (0 : Fin 1))).trans ?_
    rw [pay2_apply, pay1_apply, zero_add, tile_eq, Finset.sum_range_one]
  | n + 1, h, r => by
    have hN : n + 1 < 27 := lt_of_lt_of_eq h N_0
    have h0 : ¬(⟨n + 1, h⟩ : Fin cfg0.N).val % 27 = 0 := by dsimp only; omega
    by_cases h1 : (⟨n + 1, h⟩ : Fin cfg0.N).val % 27 = 26
    · rw [outsAt0_C m c ⟨n + 1, h⟩ h0 h1]
      dsimp only
      refine (congrFun (scratch_C (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _ (tableTile m c ⟨n + 1, h⟩)
        (weightTile m c ⟨n + 1, h⟩) (outsAt0 m c n (Nat.lt_of_succ_lt h)).2) (ix2 r (0 : Fin 1))).trans ?_
      rw [pay2_apply, tile_eq, acc_eq c n (Nat.lt_of_succ_lt h) r, Finset.sum_range_succ _ (n + 1)]
    · rw [outsAt0_B m c ⟨n + 1, h⟩ h0 h1]
      dsimp only
      refine (congrFun (scratch_B (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _ (tableTile m c ⟨n + 1, h⟩)
        (weightTile m c ⟨n + 1, h⟩) (outsAt0 m c n (Nat.lt_of_succ_lt h)).2) (ix2 r (0 : Fin 1))).trans ?_
      rw [pay2_apply, tile_eq, acc_eq c n (Nat.lt_of_succ_lt h) r, Finset.sum_range_succ _ (n + 1)]

end Region

end Cert.KernelIdeal.KerValue

end
-- ==== Proof.Regroup.lean ====
/-
  The two regroupings, for weights and a table that are real-valued on the extended reals.

  A function on the naturals into the extended reals is real when every value is a real number. A step of the chain of two
  real functions is real, hence so are the chains of three and of seven rows. For real row weights, column weights and
  table, the weighted sum over the whole table regroups by rows, and the sum of all weights is the product of the two
  partial sums.
-/
import proofs.«170063_j27496380629713_1_alg».proof.Proof.RuleWeights

noncomputable section

namespace Cert.RuleWeights

open Finset

/-- Every value is a real number. -/
def IsReal (f : ℕ → EReal) : Prop := ∀ n, ∃ r : ℝ, f n = r

theorem IsReal.extend {u v : ℕ → EReal} (hu : IsReal u) (hv : IsReal v) : IsReal (extend u v) := fun n => by
  obtain ⟨a, ha⟩ := hu (n / 6)
  obtain ⟨b, hb⟩ := hv (n % 6)
  exact ⟨a * b, by rw [extend_apply, ha, hb, EReal.coe_mul]⟩

theorem IsReal.chain3 {h0 h1 h2 : ℕ → EReal} (r0 : IsReal h0) (r1 : IsReal h1) (r2 : IsReal h2) :
    IsReal (chain3 h0 h1 h2) := (r0.extend r1).extend r2

theorem IsReal.chain7 {h3 h4 h5 h6 h7 h8 h9 : ℕ → EReal} (r3 : IsReal h3) (r4 : IsReal h4) (r5 : IsReal h5)
    (r6 : IsReal h6) (r7 : IsReal h7) (r8 : IsReal h8) (r9 : IsReal h9) : IsReal (chain7 h3 h4 h5 h6 h7 h8 h9) :=
  (((((r3.extend r4).extend r5).extend r6).extend r7).extend r8).extend r9

theorem IsReal.exists_coe {f : ℕ → EReal} (h : IsReal f) : ∃ g : ℕ → ℝ, f = fun n => (g n : EReal) := by
  choose g hg using h
  exact ⟨g, funext hg⟩

/-- THE TWO REGROUPINGS, at the table's extents: 216 rows of 279936 columns. -/
theorem regroup (RW CW tbl : ℕ → EReal) (hR : IsReal RW) (hC : IsReal CW) (hT : IsReal tbl) :
    (∑ i ∈ range 60466176, split 279936 RW CW i * tbl i
        = ∑ r ∈ range 216, RW r * ∑ k ∈ range 279936, tbl (r * 279936 + k) * CW k)
      ∧ ∑ i ∈ range 60466176, split 279936 RW CW i = (∑ r ∈ range 216, RW r) * ∑ k ∈ range 279936, CW k := by
  obtain ⟨a, rfl⟩ := hR.exists_coe
  obtain ⟨b, rfl⟩ := hC.exists_coe
  obtain ⟨y, rfl⟩ := hT.exists_coe
  exact ⟨weighted_sum 216 279936 (by norm_num) a b y, total_weight 216 279936 (by norm_num) a b⟩

end Cert.RuleWeights

end
-- ==== Proof.SumFlat.lean ====
/-
  A host sum of a one-axis array, and realness of flat readings.

  The host's sum of a one-axis array down to a single number is, on the extended reals, the initial value plus the sum of the
  array's flat reading over the first n naturals. A flat reading of an array of real numbers is real (past the end it is 0).
-/
import proofs.«170063_j27496380629713_1_alg».proof.Proof.FlatView
import proofs.«170063_j27496380629713_1_alg».proof.Proof.Regroup

noncomputable section

namespace Cert.RuleWeights

open Idealize.ShloMosaic Idealize.ShloMosaic.ValueIdx Finset

/-- The host's total sum of a one-axis array: the initial value plus the sum of the flat reading. -/
theorem reduceAdd_flat {n : ℕ} (x : FVec Ideal ⟨1, ![n]⟩ .f32) (init : FVec Ideal ⟨0, ![]⟩ .f32)
    (h : (⟨1, ![n]⟩ : Shape).ReducesTo [0] ⟨0, ![]⟩) (hu : 0 < (⟨0, ![]⟩ : Shape).numel) (i : (⟨0, ![]⟩ : Shape).Idx) :
    Host.reduceAdd x init h hu i = init (Shape.Idx.first hu) + ∑ k ∈ range n, flat x k := by
  simp only [Host.reduceAdd, Ideal.hostReduceAdd_def]
  rw [Ideal.hostReduceAdd_total h (fun b => b.elim0) x _ i, sum_idx1]

theorem isReal_rowFlat {R : ℕ} (H : (⟨2, ![R, 6]⟩ : Shape).Idx → EReal) (hH : ∀ j, ∃ r : ℝ, H j = r) (k : Fin R) :
    IsReal (rowFlat H k) := fun p => by
  unfold rowFlat
  by_cases hp : p < 6
  · rw [dif_pos hp]; exact hH _
  · rw [dif_neg hp]; exact ⟨0, rfl⟩

theorem isReal_flat2 {R C : ℕ} (Y : (⟨2, ![R, C]⟩ : Shape).Idx → EReal) (hY : ∀ j, ∃ r : ℝ, Y j = r) : IsReal (flat2 Y) :=
  fun i => by
    unfold flat2
    by_cases hi : i < R * C
    · rw [dif_pos hi]; exact hY _
    · rw [dif_neg hi]; exact ⟨0, rfl⟩

theorem isReal_rowWeights (H : (⟨2, ![10, 6]⟩ : Shape).Idx → EReal) (hH : ∀ j, ∃ r : ℝ, H j = r) : IsReal (rowWeights H) :=
  IsReal.chain3 (isReal_rowFlat H hH 0) (isReal_rowFlat H hH 1) (isReal_rowFlat H hH 2)

theorem isReal_colWeights (H : (⟨2, ![10, 6]⟩ : Shape).Idx → EReal) (hH : ∀ j, ∃ r : ℝ, H j = r) : IsReal (colWeights H) :=
  IsReal.chain7 (isReal_rowFlat H hH 3) (isReal_rowFlat H hH 4) (isReal_rowFlat H hH 5) (isReal_rowFlat H hH 6)
    (isReal_rowFlat H hH 7) (isReal_rowFlat H hH 8) (isReal_rowFlat H hH 9)

end Cert.RuleWeights

end
-- ==== Proof.KerResult.lean ====
/-
  The kernel's result.

  After the last point the output array holds, at row r, the sum over all columns of table entry · column weight. The
  host lines after the region multiply it by the row weights and sum: the numerator; multiply the sum of the row weights
  by the sum of the column weights: the denominator; and divide. Read on flat indices, the result is the quotient of
  these sums, each started from the zero word.
-/
import proofs.«170063_j27496380629713_1_alg».proof.Proof.KerAcc
import proofs.«170063_j27496380629713_1_alg».proof.Proof.SumFlat
import Idealize.ShloMosaic.Lib.StableHlo.Run

set_option maxRecDepth 16384

noncomputable section

namespace Cert.KernelIdeal.KerValue

open Cert.KernelIdeal Cert.KernelIdeal.Gen Cert.RuleWeights
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

theorem last_lt : 26 < cfg0.N := by rw [show cfg0.N = 27 from N_0]; norm_num

/-- What the output's staging buffer holds after the last point. -/
abbrev rowSums (c : Dev nD) : FVec Ideal S216x1 .f32 := (outsAt0 m c 26 last_lt).1

/-- Its entry r is the sum over all columns of table entry · column weight. -/
theorem rowSums_apply (c : Dev nD) (r : Fin 216) : rowSums m c (ix2 r (0 : Fin 1))
    = ∑ k ∈ Finset.range 279936, table m c (r.val * 279936 + k) * colWeights (memb m c) k := by
  show (outsAt0 m c 26 last_lt).1 (ix2 r (0 : Fin 1)) = _
  rw [outsAt0_C m c ⟨26, last_lt⟩ (by decide) (by decide)]
  dsimp only
  refine (congrFun (out_C (F := Ideal) c (grid0.coords ⟨26, last_lt⟩) (ms0_0 ⟨26, last_lt⟩) (hs0_0 ⟨26, last_lt⟩) (ms0_1 ⟨26, last_lt⟩)
    (hs0_1 ⟨26, last_lt⟩) (ms0_2 ⟨26, last_lt⟩) (hs0_2 ⟨26, last_lt⟩) scM0_0 (Memref.isWhole_whole _) _ _ (tableTile m c ⟨26, last_lt⟩)
    (weightTile m c ⟨26, last_lt⟩) (outsAt0 m c 25 (Nat.lt_of_succ_lt last_lt)).2) (ix2 r (0 : Fin 1))).trans ?_
  rw [pay2_apply, tile_eq, acc_eq m c 25 (Nat.lt_of_succ_lt last_lt) r,
    ← Finset.sum_range_succ (fun j => tileSum m c r.val j) 26]
  exact (sum_range_mul 27 10368 (fun k => table m c (r.val * 279936 + k) * colWeights (memb m c) k)).symm

/-- The one write-back, after the last point, writes it: the output's one block is the whole array. -/
theorem flushed_eq (c : Dev nD) (t : Fin cfg0.N) (hf : (cfg0.win 2).flush t = true) :
    (dats m 0 c).flushed 2 t = ((cfg0.win 2).blk t).view.read (Elt Ideal) (rowSums m c) := by
  have h26 : t.val = 26 := by have := (flush0_2 t).mp hf; have := point_lt t; omega
  obtain rfl : t = ⟨26, last_lt⟩ := Fin.ext h26
  show (cfg0.win 2).cut (grid0.coords ⟨26, last_lt⟩) ((dats m 0 c).after 2 ⟨26, last_lt⟩) = _
  rw [after0_2]
  have hz' : (fun a => win0_2.index ⟨26, last_lt⟩ a * main_v80.ty.shape.size a) = fun _ => 0 :=
    funext fun a => by fin_cases a <;> decide +kernel
  exact (Memref.read_access_unit_zero (Elt Ideal) main_v80 hz' (fun a => by rw [congrFun hz' a]; simp) (rowSums m c)).symm

/-- So the output array ends holding the row sums. -/
theorem out_final (c : Dev nD) : (dats m 0 c).arrAt 2 cfg0.N = rowSums m c :=
  (dats m 0 c).arrAt_eq_of_cover 2 (rowSums m c) (flushed_eq m c) fun i =>
    ⟨⟨26, last_lt⟩, (flush0_2 _).mpr rfl, by
      show i ∈ ((View.whole main_v80).slice (win0_2.rect ⟨26, last_lt⟩)).set
      rw [View.set_slice_whole, Rect.mem_set_unit]
      intro a
      have h0 : (i 0 : Nat) < 216 := (i 0).isLt
      have h1 : (i 1 : Nat) < 1 := (i 1).isLt
      match a with
      | ⟨0, _⟩ =>
        show win0_2.index ⟨26, last_lt⟩ 0 * win0_2.size 0 ≤ (i 0 : Nat)
          ∧ (i 0 : Nat) < win0_2.index ⟨26, last_lt⟩ 0 * win0_2.size 0 + win0_2.xsize (grid0.coords ⟨26, last_lt⟩) 0
        rw [show win0_2.index ⟨26, last_lt⟩ 0 * win0_2.size 0 = 0 from by decide +kernel,
          show win0_2.xsize (grid0.coords ⟨26, last_lt⟩) 0 = 216 from by decide +kernel]
        omega
      | ⟨1, _⟩ =>
        show win0_2.index ⟨26, last_lt⟩ 1 * win0_2.size 1 ≤ (i 1 : Nat)
          ∧ (i 1 : Nat) < win0_2.index ⟨26, last_lt⟩ 1 * win0_2.size 1 + win0_2.xsize (grid0.coords ⟨26, last_lt⟩) 1
        rw [show win0_2.index ⟨26, last_lt⟩ 1 * win0_2.size 1 = 0 from by decide +kernel,
          show win0_2.xsize (grid0.coords ⟨26, last_lt⟩) 1 = 1 from by decide +kernel]
        omega⟩

/-- The kernel's result: what the host lines after the region compute from the output array and the weights. -/
abbrev result (c : Dev nD) : Buf (Elt Ideal) ((c.tc : Thread nD τ).loc main_v87) :=
  Pipeline.afterTail₀ cfgs (dats m) 0 (V0 m) [hostOps1] c main_v87

/-- The row weights times the row sums, entry by entry on flat indices. -/
theorem weighted_rows (c : Dev nD) (k : ℕ) (hk : k ∈ Finset.range 216) :
    flat (n := 216) (mulf (V m c main_v27) (shapeCast S216 (rowSums m c) shapeCasts_S216x1_S216)) k
      = rowWeights (memb m c) k * ∑ j ∈ Finset.range 279936, table m c (k * 279936 + j) * colWeights (memb m c) j := by
  have hk' : k < 216 := Finset.mem_range.1 hk
  rw [flat_mulf, rows_flat, flat_reshape (R := 216) (C := 1) (by norm_num)]
  have e := flat2_ix2 (R := 216) (C := 1) (rowSums m c) ⟨k, hk'⟩ (0 : Fin 1)
  rw [show (⟨k, hk'⟩ : Fin 216).val * 1 + (0 : Fin 1).val = k from by show k * 1 + 0 = k; omega] at e
  show rowWeights (memb m c) k * flat2 (R := 216) (C := 1) (rowSums m c) k = _
  rw [e, rowSums_apply]

set_option maxHeartbeats 4000000 in
/-- THE KERNEL'S RESULT, on flat indices. -/
theorem result_apply (c : Dev nD) (i : S_.Idx) : result m c i
    = FloatOps.hostDivf (F := Ideal) (φ := .f32)
        (Ideal.ofBits .f32 0x00000000#32
          + ∑ r ∈ Finset.range 216, rowWeights (memb m c) r
              * ∑ j ∈ Finset.range 279936, table m c (r * 279936 + j) * colWeights (memb m c) j)
        ((Ideal.ofBits .f32 0x00000000#32 + ∑ r ∈ Finset.range 216, rowWeights (memb m c) r)
          * (Ideal.ofBits .f32 0x00000000#32 + ∑ j ∈ Finset.range 279936, colWeights (memb m c) j)) := by
  have e27 : Pipeline.withArrays (cfgs 0).spec c (V0 m c) (fun w => (dats m 0 c).arrAt w (cfgs 0).N) (Proc.devRef .tc main_v27)
      = V m c main_v27 :=
    Pipeline.withArrays_of_ne _ c (V0 m c) _ main_v27 (by exact (by decide : ∀ w, Pipeline.arrRef spec0 w ≠ main_v27))
  have e77 : Pipeline.withArrays (cfgs 0).spec c (V0 m c) (fun w => (dats m 0 c).arrAt w (cfgs 0).N) (Proc.devRef .tc main_v77)
      = V m c main_v77 :=
    Pipeline.withArrays_of_ne _ c (V0 m c) _ main_v77 (by exact (by decide : ∀ w, Pipeline.arrRef spec0 w ≠ main_v77))
  have e80 : Pipeline.withArrays (cfgs 0).spec c (V0 m c) (fun w => (dats m 0 c).arrAt w (cfgs 0).N) (Proc.devRef .tc main_v80)
      = rowSums m c :=
    (Pipeline.withArrays_arr spec0 launch0.win.arr_inj c _ _ 2).trans (out_final m c)
  have hres : result m c
      = Host.divf
          (Host.reduceAdd (mulf (V m c main_v27) (shapeCast S216 (rowSums m c) shapeCasts_S216x1_S216))
            (constant S_ .f32 0x00000000#32) reducesTo_S216_S_d0 h_S_)
          (mulf (Host.reduceAdd (V m c main_v27) (constant S_ .f32 0x00000000#32) reducesTo_S216_S_d0 h_S_)
            (Host.reduceAdd (V m c main_v77) (constant S_ .f32 0x00000000#32) reducesTo_S279936_S_d0 h_S_)) := by
    unfold result Pipeline.afterTail₀
    show StableHlo.after hostOps1 _ (Proc.devRef .tc main_v87) = _
    after_results
    rw [e27, e77, e80]
    rfl
  rw [hres]
  show FloatOps.hostDivf (F := Ideal) (φ := .f32)
      (Host.reduceAdd (mulf (V m c main_v27) (shapeCast S216 (rowSums m c) shapeCasts_S216x1_S216))
        (constant S_ .f32 0x00000000#32) reducesTo_S216_S_d0 h_S_ i)
      (Host.reduceAdd (V m c main_v27) (constant S_ .f32 0x00000000#32) reducesTo_S216_S_d0 h_S_ i
        * Host.reduceAdd (V m c main_v77) (constant S_ .f32 0x00000000#32) reducesTo_S279936_S_d0 h_S_ i) = _
  rw [reduceAdd_flat (n := 216), reduceAdd_flat (n := 216), reduceAdd_flat (n := 279936), rows_flat, cols_flat,
    Finset.sum_congr rfl (weighted_rows m c)]
  rfl

/-- The kernel's run, read: the result at its value, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v87) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).2 main_v87 (Pipeline.mem_restRefs_of main_v87 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KerValue

end
-- ==== Proof.FiniteInputs.lean ====
/-
  The precondition, read back: every entry of every input is a real number.

  The precondition says of each input that the absolute value of every entry is below +∞, all conjoined. An extended real
  whose absolute value is below +∞ is neither infinity: it is a real number.
-/
import proofs.«170063_j27496380629713_1_alg».proof.Pre_finite_inputs
import Idealize.ShloMosaic.Lib.ReduceAll
import Idealize.ShloMosaic.Lib.ValueIdx
import Idealize.ShloMosaic.PureOps.Ideal.Laws

noncomputable section

namespace Cert.RuleWeights

open Idealize.ShloMosaic Idealize.ShloMosaic.ValueIdx

/-- The word 0x7F800000 is +∞. -/
theorem ofBits_inf : Ideal.ofBits .f32 0x7F800000#32 = ⊤ := by
  simp [Ideal.ofBits, Ideal.ieee]

/-- An extended real whose absolute value compares below +∞ is a real number. -/
theorem real_of_abs_lt (x : EReal) (h : Ideal.cmp .olt (max x (-x)) ⊤ = 1#1) : ∃ r : ℝ, x = r := by
  induction x using EReal.rec with
  | bot => exact absurd h (by simp [Ideal.cmp])
  | coe r => exact ⟨r, rfl⟩
  | top => exact absurd h (by simp [Ideal.cmp])

instance : Subsingleton (⟨0, ![]⟩ : Shape).Idx := ⟨fun a b => funext fun d => d.elim0⟩

/-- Under the precondition every entry of the four inputs is a real number. -/
theorem real_of_pre [Cert.Pre_finite_inputs.Facts] (x0 : FVec Ideal Cert.Pre_finite_inputs.S10 .f32)
    (x1 x2 : FVec Ideal Cert.Pre_finite_inputs.S10x6 .f32) (x3 : FVec Ideal Cert.Pre_finite_inputs.S10077696x6 .f32)
    (h : Cert.Pre_finite_inputs.fn (F := Ideal) x0 x1 x2 x3 = fun _ => 1#1) :
    (∀ i, ∃ r : ℝ, x0 i = r) ∧ (∀ j, ∃ r : ℝ, x1 j = r) ∧ (∀ j, ∃ r : ℝ, x2 j = r) ∧ (∀ j, ∃ r : ℝ, x3 j = r) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun j => ?_, fun j => ?_, fun j => ?_⟩
  · have e := Host.reduce_andi_all _ _ _ _ ix0 h0' i
    exact real_of_abs_lt _ (by rw [← ofBits_inf]; exact e)
  · have e := Host.reduce_andi_all _ _ _ _ ix0 h1 j
    exact real_of_abs_lt _ (by rw [← ofBits_inf]; exact e)
  · have e := Host.reduce_andi_all _ _ _ _ ix0 h2 j
    exact real_of_abs_lt _ (by rw [← ofBits_inf]; exact e)
  · have e := Host.reduce_andi_all _ _ _ _ ix0 h3 j
    exact real_of_abs_lt _ (by rw [← ofBits_inf]; exact e)

end Cert.RuleWeights

end
-- ==== Proof.Bridge.lean ====
/-
  The two results are one number.

  Under the precondition every input entry is a real number, so every membership is real, so the row weights, the column
  weights and the table are real-valued. The reference's weights split, at 6⁷, into row weight · column weight; its
  weighted sum over the table then regroups into the kernel's sum over rows of row weight · (weighted row sum), and its
  sum of weights into the kernel's product of the two partial sums. Both programs start their sums from the zero word, which
  is 0, and divide numerator by denominator with the same division.
-/
import proofs.«170063_j27496380629713_1_alg».proof.Defs
import proofs.«170063_j27496380629713_1_alg».proof.Proof.Gen.Pre_finite_inputs
import proofs.«170063_j27496380629713_1_alg».proof.Proof.RefValue
import proofs.«170063_j27496380629713_1_alg».proof.Proof.KerResult
import proofs.«170063_j27496380629713_1_alg».proof.Proof.FiniteInputs

noncomputable section

namespace Cert.Proof.Bridge

open Cert.RuleWeights Idealize.ShloMosaic Idealize.ShloMosaic.TcCoe Idealize.SL.Sem

/-- The reference computes the memberships by the shared formula. -/
theorem ref_memb (x0 : FVec Ideal Cert.ReferenceIdeal.S10 .f32) (x1 x2 : FVec Ideal Cert.ReferenceIdeal.S10x6 .f32) :
    Cert.ReferenceIdeal.RefValue.memb x0 x1 x2
      = membership x0 x1 x2 Cert.ReferenceIdeal.Facts₀.bcast_S10_S10x1_0 Cert.ReferenceIdeal.Facts₀.bcast_S10x1_S10x6_0_1
          Cert.ReferenceIdeal.Facts₀.bcast_S_S10x6 := rfl

/-- THE BRIDGE: under the precondition the kernel's result is the reference's function of the kernel's own arguments. -/
theorem ker_eq_ref (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v88 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.KerValue.result m c := by
  funext i
  rw [Cert.ReferenceIdeal.RefValue.result_eq, Cert.KernelIdeal.KerValue.result_apply, ref_memb]
  obtain ⟨r0, r1, r2, r3⟩ := real_of_pre _ _ _ _ (hpre c)
  have hH := membership_real _ _ _ Cert.KernelIdeal.Facts₀.bcast_S10_S10x1_0 Cert.KernelIdeal.Facts₀.bcast_S10x1_S10x6_0_1
    Cert.KernelIdeal.Facts₀.bcast_S_S10x6 r0 r1 r2
  obtain ⟨hN, hD⟩ := regroup (rowWeights (Cert.KernelIdeal.KerValue.memb m c)) (colWeights (Cert.KernelIdeal.KerValue.memb m c))
    (Cert.KernelIdeal.KerValue.table m c) (isReal_rowWeights _ hH) (isReal_colWeights _ hH) (isReal_flat2 _ r3)
  show FloatOps.hostDivf (F := Ideal) (φ := .f32)
      (Ideal.ofBits .f32 0x00000000#32
        + ∑ i ∈ Finset.range 60466176, weights (Cert.KernelIdeal.KerValue.memb m c) i * Cert.KernelIdeal.KerValue.table m c i)
      (Ideal.ofBits .f32 0x00000000#32 + ∑ i ∈ Finset.range 60466176, weights (Cert.KernelIdeal.KerValue.memb m c) i) = _
  rw [weights_eq_split, hN, hD, Ideal.ofBits_zero_f32, zero_add, zero_add, zero_add, zero_add]

end Cert.Proof.Bridge

end
-- ==== Proof.lean ====
/-
  A fuzzy rule table of ten inputs with six parts each: 6¹⁰ rule weights, each the product of one Gaussian membership
  per input, and the weighted average of the table of consequents.

  The reference forms all 6¹⁰ weights by chaining ten outer products, then sums weight · consequent and the weights, and
  divides. The kernel splits the ten inputs into the first three (216 row weights) and the last seven (279936 column
  weights), computes for each row the column-weighted sum of that row of the table in one pipelined region, 27 tiles of
  10368 columns accumulated in a carried buffer, then takes the row-weighted sum of those as numerator and the product of
  the two partial sums of weights as denominator.

  On the extended reals these agree when the inputs are finite: a rule's weight is (row weight) · (column weight), and
  with every quantity a real number the sums regroup by distributivity. The memberships are real because the exponent
  −(a − x)² / (2 b²) is a real number or −∞, never +∞. The modules: RuleWeights (the chain on flat indices and the two sum
  identities over the reals), Regroup (realness along the chain; the identities at the table's extents), FlatView and
  SumFlat (arrays read on flat indices; one outer-product step and one row, once for all lengths), Membership and
  FiniteInputs (the memberships are real under the precondition), RefValue (the reference read stage by stage),
  KerHost, KerAcc, KerResult (the kernel: its host side, the accumulator point by point, the result), Bridge.
-/
import proofs.«170063_j27496380629713_1_alg».proof.Defs
import proofs.«170063_j27496380629713_1_alg».proof.Proof.Gen.Kernel
import proofs.«170063_j27496380629713_1_alg».proof.Proof.Gen.Kernel.Skeleton
import proofs.«170063_j27496380629713_1_alg».proof.Proof.Gen.Kernel.Launch
import proofs.«170063_j27496380629713_1_alg».proof.Proof.Gen.Kernel.Points
import proofs.«170063_j27496380629713_1_alg».proof.Proof.Gen.Kernel.Frame
import proofs.«170063_j27496380629713_1_alg».proof.Proof.Gen.KernelIdeal
import proofs.«170063_j27496380629713_1_alg».proof.Proof.Gen.KernelIdeal.Skeleton
import proofs.«170063_j27496380629713_1_alg».proof.Proof.Gen.KernelIdeal.Launch
import proofs.«170063_j27496380629713_1_alg».proof.Proof.Gen.KernelIdeal.Points
import proofs.«170063_j27496380629713_1_alg».proof.Proof.Gen.KernelIdeal.Frame
import proofs.«170063_j27496380629713_1_alg».proof.Proof.Gen.ReferenceIdeal
import proofs.«170063_j27496380629713_1_alg».proof.Proof.Gen.Pre_finite_inputs
import proofs.«170063_j27496380629713_1_alg».proof.Proof.Gen.ReferenceIdeal.Run
import proofs.«170063_j27496380629713_1_alg».proof.Proof.Gen.ReferenceIdeal.Read
import proofs.«170063_j27496380629713_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's run ends at its result, the reference's at its stage function of arguments that agree with the kernel's;
    under the precondition these are one number (the bridge). -/
theorem algebraic : Cert.algebraic_KernelIdeal_ReferenceIdeal := by
  intro m ρ m' ρ' hpre hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v88_eq, (hagree c).1, (hagree c).2.1, (hagree c).2.2.1, (hagree c).2.2.2]
  exact Cert.Proof.Bridge.ker_eq_ref m hpre c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
